-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S700000 : Shape := ⟨1, ![700000]⟩
abbrev S896x128 : Shape := ⟨2, ![896, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S896x128 : S_.BroadcastsInDim S896x128 (![] : Fin 0 → Fin S896x128.rank)
  reducesTo_S896x128_S_d0_1 : S896x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S700000 32) (main_arg2 : IVec S700000 32) (main_arg3 : IVec S700000 32) (main_arg4 : FVec F S896x128 .f32) (main_arg5 : FVec F S128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S896x128 .f32 := Host.absf main_arg4
  let main_cst_0 : FVec F S_ .f32 := constant S_ .f32 0x7F800000#32
  let main_v5 : FVec F S896x128 .f32 := broadcastInDim S896x128 ![] bcast_S_S896x128 main_cst_0
  let main_v6 : IVec S896x128 1 := cmpf .olt main_v4 main_v5
  let main_c_1 : IVec S_ 1 := constantI S_ 1 1#1
  let main_v7 : IVec S_ 1 := (fun x v => Host.reduce IntOp.andi x v reducesTo_S896x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S700000 : Shape := ⟨1, ![700000]⟩
abbrev S896x128 : Shape := ⟨2, ![896, 128]⟩
abbrev S128 : Shape := ⟨1, ![128]⟩
abbrev S_ : Shape := ⟨0, ![]⟩
abbrev S700000x1 : Shape := ⟨2, ![700000, 1]⟩
abbrev S700000x128 : Shape := ⟨2, ![700000, 128]⟩
abbrev S100000 : Shape := ⟨1, ![100000]⟩
abbrev S100000x1 : Shape := ⟨2, ![100000, 1]⟩
abbrev S100000x896 : Shape := ⟨2, ![100000, 896]⟩
abbrev S1x128 : Shape := ⟨2, ![1, 128]⟩
abbrev S2000x896 : Shape := ⟨2, ![2000, 896]⟩
abbrev S2000x128 : Shape := ⟨2, ![2000, 128]⟩
abbrev S5000x128 : Shape := ⟨2, ![5000, 128]⟩

abbrev nBuf : Space → Nat
  | .hbm => 67
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S700000, .i32⟩
  | .hbm, ⟨2, _⟩ => ⟨S700000, .i32⟩
  | .hbm, ⟨3, _⟩ => ⟨S700000, .i32⟩
  | .hbm, ⟨4, _⟩ => ⟨S896x128, .f32⟩
  | .hbm, ⟨5, _⟩ => ⟨S128, .f32⟩
  | .hbm, ⟨6, _⟩ => ⟨S128, .f32⟩
  | .hbm, ⟨7, _⟩ => ⟨S_, .i32⟩
  | .hbm, ⟨8, _⟩ => ⟨S700000, .i32⟩
  | .hbm, ⟨9, _⟩ => ⟨S700000, .i32⟩
  | .hbm, ⟨10, _⟩ => ⟨S700000, .i32⟩
  | .hbm, ⟨11, _⟩ => ⟨S_, .i32⟩
  | .hbm, ⟨12, _⟩ => ⟨S700000, .i32⟩
  | .hbm, ⟨13, _⟩ => ⟨S700000, .i1⟩
  | .hbm, ⟨14, _⟩ => ⟨S_, .i32⟩
  | .hbm, ⟨15, _⟩ => ⟨S700000, .i32⟩
  | .hbm, ⟨16, _⟩ => ⟨S700000, .i32⟩
  | .hbm, ⟨17, _⟩ => ⟨S700000, .i32⟩
  | .hbm, ⟨18, _⟩ => ⟨S700000x1, .i32⟩
  | .hbm, ⟨19, _⟩ => ⟨S700000x128, .f32⟩
  | .hbm, ⟨20, _⟩ => ⟨S_, .f32⟩
  | .hbm, ⟨21, _⟩ => ⟨S700000x128, .f32⟩
  | .hbm, ⟨22, _⟩ => ⟨S700000x1, .i32⟩
  | .hbm, ⟨23, _⟩ => ⟨S700000x128, .f32⟩
  | .hbm, ⟨24, _⟩ => ⟨S_, .f32⟩
  | .hbm, ⟨25, _⟩ => ⟨S700000, .f32⟩
  | .hbm, ⟨26, _⟩ => ⟨S_, .f32⟩
  | .hbm, ⟨27, _⟩ => ⟨S700000, .f32⟩
  | .hbm, ⟨28, _⟩ => ⟨S700000x1, .i32⟩
  | .hbm, ⟨29, _⟩ => ⟨S700000, .f32⟩
  | .hbm, ⟨30, _⟩ => ⟨S_, .f32⟩
  | .hbm, ⟨31, _⟩ => ⟨S700000, .f32⟩
  | .hbm, ⟨32, _⟩ => ⟨S700000, .f32⟩
  | .hbm, ⟨33, _⟩ => ⟨S700000x1, .f32⟩
  | .hbm, ⟨34, _⟩ => ⟨S700000x128, .f32⟩
  | .hbm, ⟨35, _⟩ => ⟨S700000x128, .f32⟩
  | .hbm, ⟨36, _⟩ => ⟨S100000, .i32⟩
  | .hbm, ⟨37, _⟩ => ⟨S_, .i32⟩
  | .hbm, ⟨38, _⟩ => ⟨S100000, .i32⟩
  | .hbm, ⟨39, _⟩ => ⟨S100000, .i32⟩
  | .hbm, ⟨40, _⟩ => ⟨S_, .i32⟩
  | .hbm, ⟨41, _⟩ => ⟨S100000, .i32⟩
  | .hbm, ⟨42, _⟩ => ⟨S100000, .i32⟩
  | .hbm, ⟨43, _⟩ => ⟨S_, .i32⟩
  | .hbm, ⟨44, _⟩ => ⟨S100000, .i32⟩
  | .hbm, ⟨45, _⟩ => ⟨S100000, .i1⟩
  | .hbm, ⟨46, _⟩ => ⟨S_, .i32⟩
  | .hbm, ⟨47, _⟩ => ⟨S100000, .i32⟩
  | .hbm, ⟨48, _⟩ => ⟨S100000, .i32⟩
  | .hbm, ⟨49, _⟩ => ⟨S100000, .i32⟩
  | .hbm, ⟨50, _⟩ => ⟨S100000x1, .i32⟩
  | .hbm, ⟨51, _⟩ => ⟨S700000x128, .f32⟩
  | .hbm, ⟨52, _⟩ => ⟨S100000x896, .f32⟩
  | .hbm, ⟨53, _⟩ => ⟨S100000x128, .f32⟩
  | .hbm, ⟨54, _⟩ => ⟨S1x128, .f32⟩
  | .hbm, ⟨55, _⟩ => ⟨S1x128, .f32⟩
  | .hbm, ⟨56, _⟩ => ⟨S_, .f32⟩
  | .hbm, ⟨57, _⟩ => ⟨S1x128, .f32⟩
  | .hbm, ⟨58, _⟩ => ⟨S1x128, .f32⟩
  | .hbm, ⟨59, _⟩ => ⟨S_, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S100000x128, .f32⟩
  | .local _ .vmem, ⟨0, _⟩ => ⟨S2000x896, .f32⟩
  | .local _ .vmem, ⟨1, _⟩ => ⟨S2000x896, .f32⟩
  | .local _ .vmem, ⟨2, _⟩ => ⟨S896x128, .f32⟩
  | .local _ .vmem, ⟨3, _⟩ => ⟨S2000x128, .f32⟩
  | .local _ .vmem, ⟨4, _⟩ => ⟨S2000x128, .f32⟩
  | .local _ .vmem, ⟨5, _⟩ => ⟨S1x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_c_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35_0 : Ref sig .tc := ⟨.hbm, 53, rfl⟩
abbrev main_v35_1 : Ref sig .tc := ⟨.hbm, 54, rfl⟩
abbrev main_v35_2 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S896x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S700000 : S_.BroadcastsInDim S700000 (![] : Fin 0 → Fin S700000.rank)
  bcast_S700000_S700000x1_0 : S700000.BroadcastsInDim S700000x1 (![0] : Fin 1 → Fin S700000x1.rank)
  bcast_S_S700000x128 : S_.BroadcastsInDim S700000x128 (![] : Fin 0 → Fin S700000x128.rank)
  bcast_S700000x1_S700000x128_0_1 : S700000x1.BroadcastsInDim S700000x128 (![0, 1] : Fin 2 → Fin S700000x128.rank)
  bcast_S_S100000 : S_.BroadcastsInDim S100000 (![] : Fin 0 → Fin S100000.rank)
  bcast_S100000_S100000x1_0 : S100000.BroadcastsInDim S100000x1 (![0] : Fin 1 → Fin S100000x1.rank)
  shapeCasts_S700000x128_S100000x896 : S700000x128.ShapeCasts S100000x896
  inb_S1x128_S1x128_0_0 : ∀ a, (![0, 0] : Fin 2 → Nat) a + S1x128.size a ≤ S1x128.size a
  h_S1x128 : 0 < S1x128.numel
  inb_S2000x896_S2000x896_0_0 : ∀ a, (![0, 0] : Fin 2 → Nat) a + S2000x896.size a ≤ S2000x896.size a
  h_S2000x896 : 0 < S2000x896.numel
  shapeCasts_S2000x896_S2000x896 : S2000x896.ShapeCasts S2000x896
  bitsLt_bf16_f32 : FTy.bits .bf16 < FTy.bits .f32
  inb_S896x128_S896x128_0_0 : ∀ a, (![0, 0] : Fin 2 → Nat) a + S896x128.size a ≤ S896x128.size a
  h_S896x128 : 0 < S896x128.numel
  inb_S2000x128_S2000x128_0_0 : ∀ a, (![0, 0] : Fin 2 → Nat) a + S2000x128.size a ≤ S2000x128.size a
  h_S2000x128 : 0 < S2000x128.numel
  shapeCasts_S1x128_S1x128 : S1x128.ShapeCasts S1x128
  reduces_S2000x128_S128 : S2000x128.Reduces [0] S128
  shapeCasts_S128_S1x128 : S128.ShapeCasts S1x128
  bcast_S_S1x128 : S_.BroadcastsInDim S1x128 (![] : Fin 0 → Fin S1x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S100000x128_S700000x1_S700000x128_1_0_n_n_0_1_1128_wf : GatherDims.WF S100000x128 S700000x1 S700000x128 [1] [0] [] [0] [] 1 ![1, 128]
  scatter_S700000x128_S700000x1_S700000x128_1_0_0_1_wf : ScatterDims.WF S700000x128 S700000x1 S700000x128 [1] [0] [0] 1
  scatter_S700000_S700000x1_S700000_n_0_0_1_wf : ScatterDims.WF S700000 S700000x1 S700000 [] [0] [0] 1
  scatter_S700000x128_S100000x1_S100000x128_1_0_0_1_wf : ScatterDims.WF S700000x128 S100000x1 S100000x128 [1] [0] [0] 1
  dot_S2000x896_S896x128_S2000x128_1_0_0_1_n_n_wf : DotDims.WF S2000x896 S896x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x896.size a ≤ S100000x896.size a
  hwx0_0 : ∀ i : grid0.Coords, EltTy.bits .f32 = 32 ∨ (Rect.block (s := S100000x896) S2000x896.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S896x128.size a ≤ S896x128.size a
  hwx0_1 : ∀ i : grid0.Coords, EltTy.bits .f32 = 32 ∨ (Rect.block (s := S896x128) S896x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S700000x128_S700000x1_S700000x128_1_0_0_1 : ScatterDims S700000x128 S700000x1 S700000x128 where
  updateWindowDims := [1]
  insertedWindowDims := [0]
  scatterDimsToOperandDims := [0]
  indexVectorDim := 1
  wf := scatter_S700000x128_S700000x1_S700000x128_1_0_0_1_wf
def scatter_S700000_S700000x1_S700000_n_0_0_1 : ScatterDims S700000 S700000x1 S700000 where
  updateWindowDims := []
  insertedWindowDims := [0]
  scatterDimsToOperandDims := [0]
  indexVectorDim := 1
  wf := scatter_S700000_S700000x1_S700000_n_0_0_1_wf
def scatter_S700000x128_S100000x1_S100000x128_1_0_0_1 : ScatterDims S700000x128 S100000x1 S100000x128 where
  updateWindowDims := [1]
  insertedWindowDims := [0]
  scatterDimsToOperandDims := [0]
  indexVectorDim := 1
  wf := scatter_S700000x128_S100000x1_S100000x128_1_0_0_1_wf
def dot_S2000x896_S896x128_S2000x128_1_0_0_1_n_n : DotDims S2000x896 S896x128 S2000x128 where
  lhsContracting := [1]
  rhsContracting := [0]
  lhsNonContracting := [0]
  rhsNonContracting := [1]
  lhsBatch := []
  rhsBatch := []
  wf := dot_S2000x896_S896x128_S2000x128_1_0_0_1_n_n_wf

abbrev win0_0 : Pipeline.Window sig grid0 :=
  Pipeline.Window.ofSpec (Memref.whole main_v34) S2000x896.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S896x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35_0) S2000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35_1) S1x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35_2) S1x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v35_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S700000 : Shape := ⟨1, ![700000]⟩
abbrev S896x128 : Shape := ⟨2, ![896, 128]⟩
abbrev S128 : Shape := ⟨1, ![128]⟩
abbrev S_ : Shape := ⟨0, ![]⟩
abbrev S700000x1 : Shape := ⟨2, ![700000, 1]⟩
abbrev S700000x128 : Shape := ⟨2, ![700000, 128]⟩
abbrev S100000 : Shape := ⟨1, ![100000]⟩
abbrev S100000x1 : Shape := ⟨2, ![100000, 1]⟩
abbrev S100000x896 : Shape := ⟨2, ![100000, 896]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S700000, .i32⟩
  | .hbm, ⟨2, _⟩ => ⟨S700000, .i32⟩
  | .hbm, ⟨3, _⟩ => ⟨S700000, .i32⟩
  | .hbm, ⟨4, _⟩ => ⟨S896x128, .f32⟩
  | .hbm, ⟨5, _⟩ => ⟨S128, .f32⟩
  | .hbm, ⟨6, _⟩ => ⟨S128, .f32⟩
  | .hbm, ⟨7, _⟩ => ⟨S_, .i32⟩
  | .hbm, ⟨8, _⟩ => ⟨S700000, .i32⟩
  | .hbm, ⟨9, _⟩ => ⟨S700000, .i32⟩
  | .hbm, ⟨10, _⟩ => ⟨S700000, .i32⟩
  | .hbm, ⟨11, _⟩ => ⟨S_, .i32⟩
  | .hbm, ⟨12, _⟩ => ⟨S700000, .i32⟩
  | .hbm, ⟨13, _⟩ => ⟨S700000, .i1⟩
  | .hbm, ⟨14, _⟩ => ⟨S_, .i32⟩
  | .hbm, ⟨15, _⟩ => ⟨S700000, .i32⟩
  | .hbm, ⟨16, _⟩ => ⟨S700000, .i32⟩
  | .hbm, ⟨17, _⟩ => ⟨S700000, .i32⟩
  | .hbm, ⟨18, _⟩ => ⟨S700000x1, .i32⟩
  | .hbm, ⟨19, _⟩ => ⟨S700000x128, .f32⟩
  | .hbm, ⟨20, _⟩ => ⟨S_, .f32⟩
  | .hbm, ⟨21, _⟩ => ⟨S700000x128, .f32⟩
  | .hbm, ⟨22, _⟩ => ⟨S700000x1, .i32⟩
  | .hbm, ⟨23, _⟩ => ⟨S700000x128, .f32⟩
  | .hbm, ⟨24, _⟩ => ⟨S_, .f32⟩
  | .hbm, ⟨25, _⟩ => ⟨S700000, .f32⟩
  | .hbm, ⟨26, _⟩ => ⟨S_, .f32⟩
  | .hbm, ⟨27, _⟩ => ⟨S700000, .f32⟩
  | .hbm, ⟨28, _⟩ => ⟨S700000x1, .i32⟩
  | .hbm, ⟨29, _⟩ => ⟨S700000, .f32⟩
  | .hbm, ⟨30, _⟩ => ⟨S_, .f32⟩
  | .hbm, ⟨31, _⟩ => ⟨S700000, .f32⟩
  | .hbm, ⟨32, _⟩ => ⟨S700000, .f32⟩
  | .hbm, ⟨33, _⟩ => ⟨S700000x1, .f32⟩
  | .hbm, ⟨34, _⟩ => ⟨S700000x128, .f32⟩
  | .hbm, ⟨35, _⟩ => ⟨S700000x128, .f32⟩
  | .hbm, ⟨36, _⟩ => ⟨S100000, .i32⟩
  | .hbm, ⟨37, _⟩ => ⟨S_, .i32⟩
  | .hbm, ⟨38, _⟩ => ⟨S100000, .i32⟩
  | .hbm, ⟨39, _⟩ => ⟨S100000, .i32⟩
  | .hbm, ⟨40, _⟩ => ⟨S_, .i32⟩
  | .hbm, ⟨41, _⟩ => ⟨S100000, .i32⟩
  | .hbm, ⟨42, _⟩ => ⟨S100000, .i32⟩
  | .hbm, ⟨43, _⟩ => ⟨S_, .i32⟩
  | .hbm, ⟨44, _⟩ => ⟨S100000, .i32⟩
  | .hbm, ⟨45, _⟩ => ⟨S100000, .i1⟩
  | .hbm, ⟨46, _⟩ => ⟨S_, .i32⟩
  | .hbm, ⟨47, _⟩ => ⟨S100000, .i32⟩
  | .hbm, ⟨48, _⟩ => ⟨S100000, .i32⟩
  | .hbm, ⟨49, _⟩ => ⟨S100000, .i32⟩
  | .hbm, ⟨50, _⟩ => ⟨S100000x1, .i32⟩
  | .hbm, ⟨51, _⟩ => ⟨S700000x128, .f32⟩
  | .hbm, ⟨52, _⟩ => ⟨S100000x896, .f32⟩
  | .hbm, ⟨53, _⟩ => ⟨S100000x128, .f32⟩
  | .hbm, ⟨54, _⟩ => ⟨S_, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S128, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_c_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_cst_10 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_11 : Ref sig .tc := ⟨.hbm, 63, rfl⟩
abbrev main_v43 : Ref sig .tc := ⟨.hbm, 64, rfl⟩
abbrev main_cst_12 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_13 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]

class Facts₀ : Prop where
  bcast_S_S700000 : S_.BroadcastsInDim S700000 (![] : Fin 0 → Fin S700000.rank)
  bcast_S700000_S700000x1_0 : S700000.BroadcastsInDim S700000x1 (![0] : Fin 1 → Fin S700000x1.rank)
  bcast_S_S700000x128 : S_.BroadcastsInDim S700000x128 (![] : Fin 0 → Fin S700000x128.rank)
  bcast_S700000x1_S700000x128_0_1 : S700000x1.BroadcastsInDim S700000x128 (![0, 1] : Fin 2 → Fin S700000x128.rank)
  bcast_S_S100000 : S_.BroadcastsInDim S100000 (![] : Fin 0 → Fin S100000.rank)
  bcast_S100000_S100000x1_0 : S100000.BroadcastsInDim S100000x1 (![0] : Fin 1 → Fin S100000x1.rank)
  shapeCasts_S700000x128_S100000x896 : S700000x128.ShapeCasts S100000x896
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S700000x1_S700000x128_1_0_n_n_0_1_1128_wf : GatherDims.WF S100000x128 S700000x1 S700000x128 [1] [0] [] [0] [] 1 ![1, 128]
  scatter_S700000x128_S700000x1_S700000x128_1_0_0_1_wf : ScatterDims.WF S700000x128 S700000x1 S700000x128 [1] [0] [0] 1
  scatter_S700000_S700000x1_S700000_n_0_0_1_wf : ScatterDims.WF S700000 S700000x1 S700000 [] [0] [0] 1
  scatter_S700000x128_S100000x1_S100000x128_1_0_0_1_wf : ScatterDims.WF S700000x128 S100000x1 S100000x128 [1] [0] [0] 1
  dot_S100000x896_S896x128_S100000x128_1_0_0_1_n_n_wf : DotDims.WF S100000x896 S896x128 S100000x128 [1] [0] [0] [1] [] []

variable [Facts₀]

def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S700000x128_S700000x1_S700000x128_1_0_0_1 : ScatterDims S700000x128 S700000x1 S700000x128 where
  updateWindowDims := [1]
  insertedWindowDims := [0]
  scatterDimsToOperandDims := [0]
  indexVectorDim := 1
  wf := scatter_S700000x128_S700000x1_S700000x128_1_0_0_1_wf
def scatter_S700000_S700000x1_S700000_n_0_0_1 : ScatterDims S700000 S700000x1 S700000 where
  updateWindowDims := []
  insertedWindowDims := [0]
  scatterDimsToOperandDims := [0]
  indexVectorDim := 1
  wf := scatter_S700000_S700000x1_S700000_n_0_0_1_wf
def scatter_S700000x128_S100000x1_S100000x128_1_0_0_1 : ScatterDims S700000x128 S100000x1 S100000x128 where
  updateWindowDims := [1]
  insertedWindowDims := [0]
  scatterDimsToOperandDims := [0]
  indexVectorDim := 1
  wf := scatter_S700000x128_S100000x1_S100000x128_1_0_0_1_wf
def dot_S100000x896_S896x128_S100000x128_1_0_0_1_n_n : DotDims S100000x896 S896x128 S100000x128 where
  lhsContracting := [1]
  rhsContracting := [0]
  lhsNonContracting := [0]
  rhsNonContracting := [1]
  lhsBatch := []
  rhsBatch := []
  wf := dot_S100000x896_S896x128_S100000x128_1_0_0_1_n_n_wf

class Facts : Prop extends Facts₀ where

variable [Facts]
-- ==== Proof.R0Cases.lean ====
/-
  What one grid point of the first region leaves in its three output buffers, as values.

  The body computes the tile product t = X · W of its 2000 × 896 block X of the table and the weights W, stores t,
  and adds t's column sums, and the column sums of t's squares, to two running 1 × 128 rows. At the first point both rows
  are reset to zero before they are read; at every later point they are read as the point before left them.
-/
import proofs.«139318_j77695958385178_1_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.Norm

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

/-- The origin of a rank-two block, written as a literal pair, is the all-zero offset. -/
private theorem hz00 : (![0, 0] : Fin 2 → Nat) = fun _ => 0 := funext fun a => by fin_cases a <;> rfl

/-- At the first point the tile buffer holds the tile product. -/
theorem first_tile (c : Dev nD) (i : grid0.Coords) (a1 : Memref sig .tc .vmem S2000x896 .f32) (h1 : a1.IsWhole) (a2 : Memref sig .tc .vmem S896x128 .f32) (h2 : a2.IsWhole) (a3 : Memref sig .tc .vmem S2000x128 .f32) (h3 : a3.IsWhole) (a4 : Memref sig .tc .vmem S1x128 .f32) (h4 : a4.IsWhole) (a5 : Memref sig .tc .vmem S1x128 .f32) (h5 : a5.IsWhole) (hc : cond0_0 i) (x0 : Vec F S2000x896 .f32) (x1 : Vec F S896x128 .f32) :
    out0_A_2 c i a1 h1 a2 h2 a3 h3 a4 h4 a5 h5 hc x0 x1 = k0_pay3 x0 x1 := by
  unfold out0_A_2
  rw [View.read_writes_eq_canon _ _ _ (cover0_A_2 c i a1 h1 a2 h2 a3 h3 a4 h4 a5 h5 hc x0 x1)]
  unfold kernelRun0_A
  dsimp only
  sl_unfold_words
  rw [View.canon_unit_zero hz00]
  simp only [View.readAt_eq_ld, h1.read_unread, h2.read_unread, View.ld_unit_zero (S := S2000x896) hz00, View.ld_unit_zero (S := S896x128) hz00, View.ld_unit_zero (S := S1x128) hz00]

/-- At the first point the running sum row holds the zero row plus the tile's column sums. -/
theorem first_sum (c : Dev nD) (i : grid0.Coords) (a1 : Memref sig .tc .vmem S2000x896 .f32) (h1 : a1.IsWhole) (a2 : Memref sig .tc .vmem S896x128 .f32) (h2 : a2.IsWhole) (a3 : Memref sig .tc .vmem S2000x128 .f32) (h3 : a3.IsWhole) (a4 : Memref sig .tc .vmem S1x128 .f32) (h4 : a4.IsWhole) (a5 : Memref sig .tc .vmem S1x128 .f32) (h5 : a5.IsWhole) (hc : cond0_0 i) (x0 : Vec F S2000x896 .f32) (x1 : Vec F S896x128 .f32) :
    out0_A_3 c i a1 h1 a2 h2 a3 h3 a4 h4 a5 h5 hc x0 x1 = k0_pay4 x0 x1 (k0_pay1 (F := F)) := by
  unfold out0_A_3
  rw [View.read_writes_eq_canon _ _ _ (cover0_A_3 c i a1 h1 a2 h2 a3 h3 a4 h4 a5 h5 hc x0 x1)]
  unfold kernelRun0_A
  dsimp only
  sl_unfold_words
  rw [View.canon_cons_unit_zero (S := S1x128) hz00, View.readCov_unit_zero (S := S1x128) _ hz00]
  simp only [View.readAt_eq_ld, h1.read_unread, h2.read_unread, View.ld_unit_zero (S := S2000x896) hz00, View.ld_unit_zero (S := S896x128) hz00, View.ld_unit_zero (S := S1x128) hz00]

/-- At the first point the running row of squares holds the zero row plus the column sums of the tile's squares. -/
theorem first_sumsq (c : Dev nD) (i : grid0.Coords) (a1 : Memref sig .tc .vmem S2000x896 .f32) (h1 : a1.IsWhole) (a2 : Memref sig .tc .vmem S896x128 .f32) (h2 : a2.IsWhole) (a3 : Memref sig .tc .vmem S2000x128 .f32) (h3 : a3.IsWhole) (a4 : Memref sig .tc .vmem S1x128 .f32) (h4 : a4.IsWhole) (a5 : Memref sig .tc .vmem S1x128 .f32) (h5 : a5.IsWhole) (hc : cond0_0 i) (x0 : Vec F S2000x896 .f32) (x1 : Vec F S896x128 .f32) :
    out0_A_4 c i a1 h1 a2 h2 a3 h3 a4 h4 a5 h5 hc x0 x1 = k0_pay5 x0 x1 (k0_pay2 (F := F)) := by
  unfold out0_A_4
  rw [View.read_writes_eq_canon _ _ _ (cover0_A_4 c i a1 h1 a2 h2 a3 h3 a4 h4 a5 h5 hc x0 x1)]
  unfold kernelRun0_A
  dsimp only
  sl_unfold_words
  rw [View.canon_cons_unit_zero (S := S1x128) hz00, View.readCov_unit_zero (S := S1x128) _ hz00]
  simp only [View.readAt_eq_ld, h1.read_unread, h2.read_unread, View.ld_unit_zero (S := S2000x896) hz00, View.ld_unit_zero (S := S896x128) hz00, View.ld_unit_zero (S := S1x128) hz00]

/-- At a later point the tile buffer holds the tile product. -/
theorem later_tile (c : Dev nD) (i : grid0.Coords) (a1 : Memref sig .tc .vmem S2000x896 .f32) (h1 : a1.IsWhole) (a2 : Memref sig .tc .vmem S896x128 .f32) (h2 : a2.IsWhole) (a3 : Memref sig .tc .vmem S2000x128 .f32) (h3 : a3.IsWhole) (a4 : Memref sig .tc .vmem S1x128 .f32) (h4 : a4.IsWhole) (a5 : Memref sig .tc .vmem S1x128 .f32) (h5 : a5.IsWhole) (hc : ¬cond0_0 i) (x0 : Vec F S2000x896 .f32) (x1 : Vec F S896x128 .f32)
    (xo3 xo4 : Vec F S1x128 .f32) :
    out0_B_2 c i a1 h1 a2 h2 a3 h3 a4 h4 a5 h5 hc x0 x1 xo3 xo4 = k0_pay3 x0 x1 := by
  unfold out0_B_2
  rw [View.read_writes_eq_canon _ _ _ (cover0_B_2 c i a1 h1 a2 h2 a3 h3 a4 h4 a5 h5 hc x0 x1 xo3 xo4)]
  unfold kernelRun0_B
  dsimp only
  sl_unfold_words
  rw [View.canon_unit_zero hz00]
  simp only [View.readAt_eq_ld, h1.read_unread, h2.read_unread, h4.read_unread, h5.read_unread, View.ld_unit_zero (S := S2000x896) hz00, View.ld_unit_zero (S := S896x128) hz00, View.ld_unit_zero (S := S1x128) hz00]

/-- At a later point the running sum row holds what it held plus the tile's column sums. -/
theorem later_sum (c : Dev nD) (i : grid0.Coords) (a1 : Memref sig .tc .vmem S2000x896 .f32) (h1 : a1.IsWhole) (a2 : Memref sig .tc .vmem S896x128 .f32) (h2 : a2.IsWhole) (a3 : Memref sig .tc .vmem S2000x128 .f32) (h3 : a3.IsWhole) (a4 : Memref sig .tc .vmem S1x128 .f32) (h4 : a4.IsWhole) (a5 : Memref sig .tc .vmem S1x128 .f32) (h5 : a5.IsWhole) (hc : ¬cond0_0 i) (x0 : Vec F S2000x896 .f32) (x1 : Vec F S896x128 .f32)
    (xo3 xo4 : Vec F S1x128 .f32) :
    out0_B_3 c i a1 h1 a2 h2 a3 h3 a4 h4 a5 h5 hc x0 x1 xo3 xo4 = k0_pay4 x0 x1 xo3 := by
  unfold out0_B_3
  rw [View.read_writes_eq_canon _ _ _ (cover0_B_3 c i a1 h1 a2 h2 a3 h3 a4 h4 a5 h5 hc x0 x1 xo3 xo4)]
  unfold kernelRun0_B
  dsimp only
  sl_unfold_words
  rw [View.canon_unit_zero hz00]
  simp only [View.readAt_eq_ld, h1.read_unread, h2.read_unread, h4.read_unread, h5.read_unread, View.ld_unit_zero (S := S2000x896) hz00, View.ld_unit_zero (S := S896x128) hz00, View.ld_unit_zero (S := S1x128) hz00]

/-- At a later point the running row of squares holds what it held plus the column sums of the tile's squares. -/
theorem later_sumsq (c : Dev nD) (i : grid0.Coords) (a1 : Memref sig .tc .vmem S2000x896 .f32) (h1 : a1.IsWhole) (a2 : Memref sig .tc .vmem S896x128 .f32) (h2 : a2.IsWhole) (a3 : Memref sig .tc .vmem S2000x128 .f32) (h3 : a3.IsWhole) (a4 : Memref sig .tc .vmem S1x128 .f32) (h4 : a4.IsWhole) (a5 : Memref sig .tc .vmem S1x128 .f32) (h5 : a5.IsWhole) (hc : ¬cond0_0 i) (x0 : Vec F S2000x896 .f32) (x1 : Vec F S896x128 .f32)
    (xo3 xo4 : Vec F S1x128 .f32) :
    out0_B_4 c i a1 h1 a2 h2 a3 h3 a4 h4 a5 h5 hc x0 x1 xo3 xo4 = k0_pay5 x0 x1 xo4 := by
  unfold out0_B_4
  rw [View.read_writes_eq_canon _ _ _ (cover0_B_4 c i a1 h1 a2 h2 a3 h3 a4 h4 a5 h5 hc x0 x1 xo3 xo4)]
  unfold kernelRun0_B
  dsimp only
  sl_unfold_words
  rw [View.canon_unit_zero hz00]
  simp only [View.readAt_eq_ld, h1.read_unread, h2.read_unread, h4.read_unread, h5.read_unread, View.ld_unit_zero (S := S2000x896) hz00, View.ld_unit_zero (S := S896x128) hz00, View.ld_unit_zero (S := S1x128) hz00]

end Cert.KernelIdeal.Norm

end
-- ==== Proof.LibLinear.lean ====
/-
  Finite sums of real numbers inside the extended reals, and the exchange of a weighted row sum with a matrix product.

  For rows x e (e in a finite set S) with real entries, real weights c e and a real column W:
    Σ k, (Σ e ∈ S, x e k · c e) · W k  =  Σ e ∈ S, (Σ k, x e k · W k) · c e.
  Both sides are the real number Σ e ∈ S, Σ k, x e k · c e · W k; on the extended reals the law needs every factor
  finite, because a product does not distribute over a sum that mixes infinities.
-/
import Idealize.ShloMosaic.PureOps.Ideal

noncomputable section

namespace Cert.LibLinear

/-- The extended real of a finite sum of reals is the sum of the extended reals. -/
theorem coe_sum {ι : Type} (S : Finset ι) (f : ι → ℝ) : ((∑ i ∈ S, f i : ℝ) : EReal) = ∑ i ∈ S, (f i : EReal) := by
  classical
  refine Finset.induction_on S ?_ ?_
  · simp
  · intro a s ha ih
    rw [Finset.sum_insert ha, Finset.sum_insert ha, EReal.coe_add, ih]

/-- A finite sum of extended reals that are all real is real. -/
theorem sum_real {ι : Type} (S : Finset ι) (f : ι → EReal) (hf : ∀ i ∈ S, ∃ r : ℝ, f i = (r : EReal)) :
    ∃ r : ℝ, ∑ i ∈ S, f i = (r : EReal) := by
  refine ⟨∑ i ∈ S, (f i).toReal, ?_⟩
  rw [coe_sum]
  refine Finset.sum_congr rfl (fun i hi => ?_)
  obtain ⟨r, hr⟩ := hf i hi
  rw [hr, EReal.toReal_coe]

/-- The exchange law. -/
theorem exchange {E K : Type} [Fintype K] (S : Finset E) (x : E → K → EReal) (cw : E → EReal) (W : K → EReal)
    (hx : ∀ e k, ∃ r : ℝ, x e k = (r : EReal)) (hc : ∀ e, ∃ r : ℝ, cw e = (r : EReal)) (hW : ∀ k, ∃ r : ℝ, W k = (r : EReal)) :
    ∑ k : K, (∑ e ∈ S, x e k * cw e) * W k = ∑ e ∈ S, (∑ k : K, x e k * W k) * cw e := by
  -- real witnesses for every entry
  choose xr hxr using hx
  choose cr hcr using hc
  choose Wr hWr using hW
  -- the left side is the extended real of a real double sum
  have hL : ∑ k : K, (∑ e ∈ S, x e k * cw e) * W k
      = ((∑ k : K, (∑ e ∈ S, xr e k * cr e) * Wr k : ℝ) : EReal) := by
    rw [coe_sum]
    refine Finset.sum_congr rfl (fun k _ => ?_)
    rw [EReal.coe_mul, coe_sum, hWr]
    congr 1
    refine Finset.sum_congr rfl (fun e _ => ?_)
    rw [EReal.coe_mul, hxr, hcr]
  -- so is the right side
  have hR : ∑ e ∈ S, (∑ k : K, x e k * W k) * cw e
      = ((∑ e ∈ S, (∑ k : K, xr e k * Wr k) * cr e : ℝ) : EReal) := by
    rw [coe_sum]
    refine Finset.sum_congr rfl (fun e _ => ?_)
    rw [EReal.coe_mul, coe_sum, hcr]
    congr 1
    refine Finset.sum_congr rfl (fun k _ => ?_)
    rw [EReal.coe_mul, hxr, hWr]
  rw [hL, hR]
  congr 1
  -- over the reals: distribute, swap the two sums, and compare term by term
  simp only [Finset.sum_mul]
  rw [Finset.sum_comm]
  refine Finset.sum_congr rfl (fun e _ => Finset.sum_congr rfl (fun k _ => ?_))
  ring

end Cert.LibLinear

end
-- ==== Proof.NormSpec.lean ====
/-
  Batch normalisation of a dense product over the extended reals: the specification both programs meet.

  For a table A of 100000 rows of width 896 and weights Wt of 896 rows of width 128 the dense product is
  o p q = Σ k, A (p, k) · Wt (k, q). Per column q: the mean μ q = (Σ p, o p q) / 100000, and the variance in two forms,
  the mean of the squares less the square of the mean, (Σ p, (o p q)²) / 100000 − μ q · μ q, and the mean of the squared
  deviations, (Σ p, (o p q − μ q)²) / 100000. The normalised entry is (o p q − μ q) · (var q + ε)^(−1/2) · γ q + β q.
  When every o p q is a real number the two variances agree; an infinite entry breaks the identity, because the
  extended reals do not distribute a product over a sum that mixes infinities.
-/
import Idealize.ShloMosaic.PureOps.Ideal
import Idealize.ShloMosaic.PureOps.Ideal.Laws
import Idealize.ShloMosaic.Lib.ValueIdx
import proofs.«139318_j77695958385178_1_alg».proof.Proof.LibLinear

noncomputable section

namespace Cert.NormSpec

open Idealize.ShloMosaic Idealize.ShloMosaic.ValueIdx

/-- The divisor both programs spell, 100000.0. -/
def cN : EReal := Ideal.ofBits .f32 0x47C35000#32
/-- The stabiliser both programs spell, the single-precision value nearest 1e-5. -/
def eps : EReal := Ideal.ofBits .f32 0x3727C5AC#32

/-- The divisor is the real number 100000. -/
theorem cN_eq : cN = ((100000 : ℝ) : EReal) := by
  -- sign 0, exponent 143, fraction 0x435000: 2^16 · (1 + 0x435000 / 2^23) = 100000
  unfold cN
  simp [Ideal.ofBits, Ideal.ieee, -EReal.coe_mul]; norm_num

/-- Entry (p, q) of the dense product: the sum over k of A (p, k) · Wt (k, q). -/
def dense (A : (⟨2, ![100000, 896]⟩ : Shape).Idx → EReal) (Wt : (⟨2, ![896, 128]⟩ : Shape).Idx → EReal)
    (p : Fin 100000) (q : Fin 128) : EReal :=
  ∑ kk : Fin 896, A (ix2 p kk) * Wt (ix2 kk q)

/-- Column sums of a 100000 × 128 table, and of its squares. -/
def colSum (o : Fin 100000 → Fin 128 → EReal) (q : Fin 128) : EReal := ∑ p : Fin 100000, o p q
def colSumSq (o : Fin 100000 → Fin 128 → EReal) (q : Fin 128) : EReal := ∑ p : Fin 100000, o p q * o p q

/-- The column mean. -/
def mean (o : Fin 100000 → Fin 128 → EReal) (q : Fin 128) : EReal := Ideal.div (colSum o q) cN

/-- The variance as the mean of the squares less the square of the mean. -/
def varMoments (o : Fin 100000 → Fin 128 → EReal) (q : Fin 128) : EReal :=
  Ideal.div (colSumSq o q) cN - mean o q * mean o q

/-- The variance as the mean of the squared deviations. -/
def varDeviations (o : Fin 100000 → Fin 128 → EReal) (q : Fin 128) : EReal :=
  Ideal.div (∑ p : Fin 100000, (o p q - mean o q) * (o p q - mean o q)) cN

/-- The normalised entry, over a variance given per column. -/
def normWith (var : Fin 128 → EReal) (o : Fin 100000 → Fin 128 → EReal) (g b : Fin 128 → EReal)
    (p : Fin 100000) (q : Fin 128) : EReal :=
  (o p q - mean o q) * Ideal.rsqrt (var q + eps) * g q + b q

/-- A dense product of real tables has real entries. -/
theorem dense_real (A : (⟨2, ![100000, 896]⟩ : Shape).Idx → EReal) (Wt : (⟨2, ![896, 128]⟩ : Shape).Idx → EReal)
    (hA : ∀ i, ∃ r : ℝ, A i = (r : EReal)) (hW : ∀ i, ∃ r : ℝ, Wt i = (r : EReal)) (p : Fin 100000) (q : Fin 128) :
    ∃ r : ℝ, dense A Wt p q = (r : EReal) := by
  unfold dense
  -- each term is a product of two reals, and a finite sum of reals is real
  refine Cert.LibLinear.sum_real _ _ (fun kk _ => ?_)
  obtain ⟨a, ha⟩ := hA (ix2 p kk)
  obtain ⟨w, hw⟩ := hW (ix2 kk q)
  exact ⟨a * w, by rw [ha, hw, EReal.coe_mul]⟩

/-- Over the reals: for N terms x p with sum S and mean μ = S · (1/N), the mean of the squared deviations is the mean
    of the squares less μ². Expanding, Σ (x p − μ)² = Σ (x p)² − 2 μ S + N μ², and N μ = S. -/
theorem real_var_forms (x : Fin 100000 → ℝ) :
    (∑ p : Fin 100000, (x p - (∑ p : Fin 100000, x p) * (1 / 100000)) * (x p - (∑ p : Fin 100000, x p) * (1 / 100000)))
        * (1 / 100000)
      = (∑ p : Fin 100000, x p * x p) * (1 / 100000)
        - (∑ p : Fin 100000, x p) * (1 / 100000) * ((∑ p : Fin 100000, x p) * (1 / 100000)) := by
  generalize hS : (∑ p : Fin 100000, x p) = S
  have hexp : ∀ p, (x p - S * (1 / 100000)) * (x p - S * (1 / 100000))
      = x p * x p - 2 * (S * (1 / 100000)) * x p + S * (1 / 100000) * (S * (1 / 100000)) := fun p => by ring
  simp only [hexp, Finset.sum_add_distrib, Finset.sum_sub_distrib, ← Finset.mul_sum, Finset.sum_const,
    Finset.card_univ, Fintype.card_fin, nsmul_eq_mul, hS]
  push_cast
  ring

/-- On real entries the two forms of the variance agree. -/
theorem var_forms (o : Fin 100000 → Fin 128 → EReal) (ho : ∀ p q, ∃ r : ℝ, o p q = (r : EReal)) (q : Fin 128) :
    varDeviations o q = varMoments o q := by
  -- real witnesses for every entry
  choose f hf using ho
  unfold varDeviations varMoments mean colSum colSumSq
  rw [cN_eq]
  simp only [Ideal.div_coe (by norm_num : (100000 : ℝ) ≠ 0)]
  -- the column sum and the column sum of squares are the extended reals of real sums
  have h1 : ∑ p : Fin 100000, o p q = ((∑ p : Fin 100000, f p q : ℝ) : EReal) := by
    rw [Cert.LibLinear.coe_sum]
    exact Finset.sum_congr rfl (fun p _ => hf p q)
  have h2 : ∑ p : Fin 100000, o p q * o p q = ((∑ p : Fin 100000, f p q * f p q : ℝ) : EReal) := by
    rw [Cert.LibLinear.coe_sum]
    refine Finset.sum_congr rfl (fun p _ => ?_)
    rw [hf p q, EReal.coe_mul]
  rw [h1, h2]
  -- so is the sum of the squared deviations from the (real) mean
  have h3 : ∑ p : Fin 100000,
        (o p q - ((∑ p : Fin 100000, f p q : ℝ) : EReal) * ((1 / 100000 : ℝ) : EReal))
          * (o p q - ((∑ p : Fin 100000, f p q : ℝ) : EReal) * ((1 / 100000 : ℝ) : EReal))
      = ((∑ p : Fin 100000, (f p q - (∑ p : Fin 100000, f p q) * (1 / 100000))
          * (f p q - (∑ p : Fin 100000, f p q) * (1 / 100000)) : ℝ) : EReal) := by
    refine Eq.trans ?_ (Cert.LibLinear.coe_sum _ _).symm
    refine Finset.sum_congr rfl (fun p _ => ?_)
    rw [hf p q, EReal.coe_mul, EReal.coe_sub, EReal.coe_mul]
  rw [h3]
  -- both sides are now extended reals of real numbers, and the real numbers agree
  simp only [← EReal.coe_mul, ← EReal.coe_sub]
  have key := real_var_forms (fun p => f p q)
  beta_reduce at key
  rw [key]

/-- So the two normalisations agree on real entries. -/
theorem norm_forms (o : Fin 100000 → Fin 128 → EReal) (ho : ∀ p q, ∃ r : ℝ, o p q = (r : EReal)) (g b : Fin 128 → EReal)
    (p : Fin 100000) (q : Fin 128) :
    normWith (varDeviations o) o g b p q = normWith (varMoments o) o g b p q := by
  unfold normWith
  rw [var_forms o ho q]

/-- Summing 100000 terms fifty blocks of 2000 at a time: the running sum after block n is the sum of the first
    2000 · (n + 1) terms. Stated over the naturals so that no bound is carried. -/
theorem sum_range_block (f : ℕ → EReal) (n : ℕ) :
    ∑ k ∈ Finset.range (2000 * (n + 1)), f k = ∑ k ∈ Finset.range (2000 * n), f k + ∑ r : Fin 2000, f (2000 * n + r.val) := by
  -- 2000 · (n + 1) = 2000 · n + 2000; split the range there, and index the last 2000 terms by Fin 2000
  rw [show 2000 * (n + 1) = 2000 * n + 2000 by ring, Finset.sum_range_add,
    Finset.sum_range (fun r => f (2000 * n + r))]

end Cert.NormSpec

end
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.R0Fold.lean ====
/-
  The first region's three output buffers after grid point n, in closed form, over the extended reals.

  With o the dense product of the table and the weights as the region finds them, and o k q read as 0 for k past the
  last row (so that no bound is carried): after point n the tile buffer holds rows 2000 n … 2000 n + 1999 of o, the
  running sum row holds Σ k < 2000 (n + 1), o k q, and the running row of squares Σ k < 2000 (n + 1), (o k q)².
  By induction on the point: the first point starts both rows from zero, each later point adds its tile's column sums.
-/
import proofs.«139318_j77695958385178_1_alg».proof.Proof.R0Cases
import proofs.«139318_j77695958385178_1_alg».proof.Proof.NormSpec
import proofs.«139318_j77695958385178_1_alg».proof.Proof.LibDense
import Idealize.ShloMosaic.PureOps.Ideal.Laws
import Idealize.ShloMosaic.Lib.ValueLayout

set_option maxRecDepth 16384

noncomputable section

namespace Cert.KernelIdeal.Norm

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The dense product of the table and the weights the first region finds, at row k (0 past the last row). -/
def oN (c : Dev nD) (k : ℕ) (q : Fin 128) : EReal :=
  if hk : k < 100000 then NormSpec.dense (V c main_v34) (V c main_arg4) ⟨k, hk⟩ q else 0

/-- What the three output buffers hold after point n, each at its literal type. -/
abbrev tileAt (c : Dev nD) (n : ℕ) (h : n < cfg0.N) : FVec Ideal S2000x128 .f32 := (outsAt0 V c n h).1
abbrev sumAt (c : Dev nD) (n : ℕ) (h : n < cfg0.N) : FVec Ideal S1x128 .f32 := (outsAt0 V c n h).2.1
abbrev sumSqAt (c : Dev nD) (n : ℕ) (h : n < cfg0.N) : FVec Ideal S1x128 .f32 := (outsAt0 V c n h).2.2

/-! ## The body's arithmetic read at an entry -/

/-- Entry (r, q) of the tile product: the sum over k of X (r, k) · W (k, q). -/
theorem tile_apply (x0 : FVec Ideal S2000x896 .f32) (x1 : FVec Ideal S896x128 .f32) (r : Fin 2000) (q : Fin 128) :
    k0_pay3 x0 x1 (ix2 r q) = ∑ kk : Fin 896, x0 (ix2 r kk) * x1 (ix2 kk q) := by
  unfold k0_pay3
  refine (Cert.LibDense.matmul_zero_apply dot_S2000x896_S896x128_S2000x128_1_0_0_1_n_n none rfl rfl rfl rfl rfl rfl _ _ r q).trans ?_
  refine Finset.sum_congr rfl fun kk _ => ?_
  rw [shapeCast_self]
  rfl

/-- Column q of a 2000 × 128 tile with the row k put back is the entry (k, q). -/
theorem lift_row (q : Fin 128) (k : Fin (S2000x128.size 0)) :
    reduces_S2000x128_S128.lift (ix1 q) k = ix2 (⟨k.val, k.isLt⟩ : Fin 2000) q := by
  funext a; apply Fin.ext
  match a with
  | ⟨0, _⟩ => rfl
  | ⟨1, _⟩ => rfl

/-- The running sum row after one more tile: what it held plus the tile's column sum. -/
theorem sum_apply (x0 : FVec Ideal S2000x896 .f32) (x1 : FVec Ideal S896x128 .f32) (v : FVec Ideal S1x128 .f32) (q : Fin 128) :
    k0_pay4 x0 x1 v (ix2 (0 : Fin 1) q) = v (ix2 (0 : Fin 1) q) + ∑ r : Fin 2000, k0_pay3 x0 x1 (ix2 r q) := by
  unfold k0_pay4
  refine (addf_apply _ _ _).trans ?_
  refine congrArg₂ (· + ·) (congrFun (shapeCast_self v _) _) ?_
  refine (shapeCast_a_1a_apply _ _ (0 : Fin 1) q).trans ?_
  refine (Ideal.multiReduction_add_single (k0_pay3 x0 x1) 0x00000000#32 reduces_S2000x128_S128 (.inl rfl) rfl (ix1 q)).trans ?_
  exact Finset.sum_congr rfl fun k _ => congrArg (k0_pay3 (F := Ideal) x0 x1) (lift_row q k)

/-- The running row of squares after one more tile: what it held plus the column sum of the tile's squares. -/
theorem sumsq_apply (x0 : FVec Ideal S2000x896 .f32) (x1 : FVec Ideal S896x128 .f32) (v : FVec Ideal S1x128 .f32) (q : Fin 128) :
    k0_pay5 x0 x1 v (ix2 (0 : Fin 1) q)
      = v (ix2 (0 : Fin 1) q) + ∑ r : Fin 2000, k0_pay3 x0 x1 (ix2 r q) * k0_pay3 x0 x1 (ix2 r q) := by
  unfold k0_pay5
  refine (addf_apply _ _ _).trans ?_
  refine congrArg₂ (· + ·) (congrFun (shapeCast_self v _) _) ?_
  refine (shapeCast_a_1a_apply _ _ (0 : Fin 1) q).trans ?_
  refine (Ideal.multiReduction_add_single (mulf (k0_pay3 x0 x1) (k0_pay3 x0 x1)) 0x00000000#32 reduces_S2000x128_S128 (.inl rfl) rfl (ix1 q)).trans ?_
  exact Finset.sum_congr rfl fun k _ => congrArg (mulf (k0_pay3 (F := Ideal) x0 x1) (k0_pay3 (F := Ideal) x0 x1)) (lift_row q k)

/-- The zero row the first point starts from. -/
theorem zero_row_apply (q : Fin 128) : (k0_pay1 (F := Ideal)) (ix2 (0 : Fin 1) q) = 0 := by
  unfold k0_pay1
  exact Ideal.ofBits_zero_f32

/-- The zero row the row of squares starts from. -/
theorem zero_row_apply' (q : Fin 128) : (k0_pay2 (F := Ideal)) (ix2 (0 : Fin 1) q) = 0 := by
  unfold k0_pay2
  exact Ideal.ofBits_zero_f32

/-! ## The blocks the body reads -/

/-- The table and the weights as the region finds them, and the blocks of them a point reads, each at its literal type. -/
abbrev tbl (c : Dev nD) : FVec Ideal S100000x896 .f32 := V c main_v34
abbrev wts (c : Dev nD) : FVec Ideal S896x128 .f32 := V c main_arg4
abbrev xblk (c : Dev nD) (t : Fin cfg0.N) : FVec Ideal S2000x896 .f32 := iblk0 V c 0 t
abbrev wblk (c : Dev nD) (t : Fin cfg0.N) : FVec Ideal S896x128 .f32 := iblk0 V c 1 t

/-- The index maps over the grid: the table's block at point t is block (t, 0); the weights' is always block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0)

/-- Row r of the table's block at point t is row 2000 t + r of the table. -/
theorem xblk_apply (c : Dev nD) (t : Fin cfg0.N) (r : Fin 2000) (kk : Fin 896) (hr : 2000 * t.val + r.val < 100000) :
    xblk V c t (ix2 r kk) = tbl V c (ix2 (⟨2000 * t.val + r.val, hr⟩ : Fin 100000) kk) := by
  obtain ⟨e0, e1, -, -⟩ := idx_facts t
  show V c main_v34 (((cfg0.win 0).blk t).view.emb (ix2 r kk)) = V c main_v34 (ix2 (⟨2000 * t.val + r.val, hr⟩ : Fin 100000) kk)
  refine congrArg (V c main_v34) ?_
  funext a; apply Fin.ext
  match a with
  | ⟨0, _⟩ => show win0_0.index t (0 : Fin 2) * 2000 + 1 * r.val = 2000 * t.val + r.val; omega
  | ⟨1, _⟩ => show win0_0.index t (1 : Fin 2) * 896 + 1 * kk.val = kk.val; omega

/-- The weights' block is the whole of the weights at every point. -/
theorem wblk_apply (c : Dev nD) (t : Fin cfg0.N) (kk : Fin 896) (q : Fin 128) :
    wblk V c t (ix2 kk q) = wts V c (ix2 kk q) := by
  obtain ⟨-, -, e2, e3⟩ := idx_facts t
  show V c main_arg4 (((cfg0.win 1).blk t).view.emb (ix2 kk q)) = V c main_arg4 (ix2 kk q)
  refine congrArg (V c main_arg4) ?_
  funext a; apply Fin.ext
  match a with
  | ⟨0, _⟩ => show win0_1.index t (0 : Fin 2) * 896 + 1 * kk.val = kk.val; omega
  | ⟨1, _⟩ => show win0_1.index t (1 : Fin 2) * 128 + 1 * q.val = q.val; omega

/-- The grid has fifty points. -/
theorem lt_fifty (t : Fin cfg0.N) : t.val < 50 := by
  have h := t.isLt
  have e : cfg0.N = 50 := N_0
  omega

/-- The tile product of the blocks at point t is rows 2000 t … 2000 t + 1999 of the dense product. -/
theorem tile_block (c : Dev nD) (t : Fin cfg0.N) (r : Fin 2000) (q : Fin 128) :
    k0_pay3 (F := Ideal) (xblk V c t) (wblk V c t) (ix2 r q) = oN V c (2000 * t.val + r.val) q := by
  have ht := lt_fifty t
  have hr : 2000 * t.val + r.val < 100000 := by have := r.isLt; omega
  refine (tile_apply (xblk V c t) (wblk V c t) r q).trans ?_
  unfold oN
  rw [dif_pos hr]
  unfold NormSpec.dense
  refine Finset.sum_congr rfl fun kk _ => ?_
  rw [xblk_apply V c t r kk hr, wblk_apply V c t kk q]

/-! ## One grid point -/

/-- The tile buffer after point t holds rows 2000 t … of the dense product, whichever case the point is. -/
theorem tile_point (c : Dev nD) (t : Fin cfg0.N) (r : Fin 2000) (q : Fin 128) :
    (outsAt0 V c t.val t.isLt).1 (ix2 r q) = oN V c (2000 * t.val + r.val) q := by
  by_cases h0 : t.val % 50 = 0
  · rw [outsAt0_A V c t h0]; dsimp only
    refine (congrFun (first_tile (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)) (ix2 r q)).trans ?_
    exact tile_block V c t r q
  · rw [outsAt0_B V c t h0]; dsimp only
    refine (congrFun (later_tile (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) (ix2 r q)).trans ?_
    exact tile_block V c t r q

/-- The sum row after the first point: the first tile's column sums. -/
theorem sum_first (c : Dev nD) (t : Fin cfg0.N) (h0 : t.val % 50 = 0) (q : Fin 128) :
    (outsAt0 V c t.val t.isLt).2.1 (ix2 (0 : Fin 1) q) = ∑ r : Fin 2000, oN V c (2000 * t.val + r.val) q := by
  rw [outsAt0_A V c t h0]; dsimp only
  refine (congrFun (first_sum (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)) (ix2 (0 : Fin 1) q)).trans ?_
  refine (sum_apply (xblk V c t) (wblk V c t) (k0_pay1 (F := Ideal)) q).trans ?_
  rw [zero_row_apply, zero_add]
  exact Finset.sum_congr rfl fun r _ => tile_block V c t r q

/-- The sum row after a later point: what the point before left plus this tile's column sums. -/
theorem sum_later (c : Dev nD) (t : Fin cfg0.N) (h0 : ¬t.val % 50 = 0) (q : Fin 128) :
    (outsAt0 V c t.val t.isLt).2.1 (ix2 (0 : Fin 1) q)
      = (outsAt0 V c (t.val - 1) (Nat.lt_of_le_of_lt (Nat.sub_le _ _) t.isLt)).2.1 (ix2 (0 : Fin 1) q) + ∑ r : Fin 2000, oN V c (2000 * t.val + r.val) q := by
  rw [outsAt0_B V c t h0]; dsimp only
  refine (congrFun (later_sum (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) (ix2 (0 : Fin 1) q)).trans ?_
  refine (sum_apply (xblk V c t) (wblk V c t) (outsAt0 V c (t.val - 1) (Nat.lt_of_le_of_lt (Nat.sub_le _ _) t.isLt)).2.1 q).trans ?_
  exact congrArg (_ + ·) (Finset.sum_congr rfl fun r _ => tile_block V c t r q)

/-- The row of squares after the first point: the column sums of the first tile's squares. -/
theorem sumsq_first (c : Dev nD) (t : Fin cfg0.N) (h0 : t.val % 50 = 0) (q : Fin 128) :
    (outsAt0 V c t.val t.isLt).2.2 (ix2 (0 : Fin 1) q)
      = ∑ r : Fin 2000, oN V c (2000 * t.val + r.val) q * oN V c (2000 * t.val + r.val) q := by
  rw [outsAt0_A V c t h0]; dsimp only
  refine (congrFun (first_sumsq (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)) (ix2 (0 : Fin 1) q)).trans ?_
  refine (sumsq_apply (xblk V c t) (wblk V c t) (k0_pay2 (F := Ideal)) q).trans ?_
  rw [zero_row_apply', zero_add]
  exact Finset.sum_congr rfl fun r _ => congrArg₂ (· * ·) (tile_block V c t r q) (tile_block V c t r q)

/-- The row of squares after a later point: what the point before left plus the column sums of this tile's squares. -/
theorem sumsq_later (c : Dev nD) (t : Fin cfg0.N) (h0 : ¬t.val % 50 = 0) (q : Fin 128) :
    (outsAt0 V c t.val t.isLt).2.2 (ix2 (0 : Fin 1) q)
      = (outsAt0 V c (t.val - 1) (Nat.lt_of_le_of_lt (Nat.sub_le _ _) t.isLt)).2.2 (ix2 (0 : Fin 1) q)
        + ∑ r : Fin 2000, oN V c (2000 * t.val + r.val) q * oN V c (2000 * t.val + r.val) q := by
  rw [outsAt0_B V c t h0]; dsimp only
  refine (congrFun (later_sumsq (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) (ix2 (0 : Fin 1) q)).trans ?_
  refine (sumsq_apply (xblk V c t) (wblk V c t) (outsAt0 V c (t.val - 1) (Nat.lt_of_le_of_lt (Nat.sub_le _ _) t.isLt)).2.2 q).trans ?_
  exact congrArg (_ + ·) (Finset.sum_congr rfl fun r _ => congrArg₂ (· * ·) (tile_block V c t r q) (tile_block V c t r q))

/-- The first block of a sum taken 2000 terms at a time. -/
theorem sum_first_block (f : ℕ → EReal) : ∑ k ∈ Finset.range (2000 * (0 + 1)), f k = ∑ r : Fin 2000, f (2000 * 0 + r.val) := by
  rw [NormSpec.sum_range_block f 0, Nat.mul_zero, Finset.range_zero, Finset.sum_empty, zero_add]

/-! ## The closed forms, by induction on the point -/

/-- The tile buffer after point n: rows 2000 n … of the dense product. -/
theorem outs_tile (c : Dev nD) (n : ℕ) (h : n < cfg0.N) (r : Fin 2000) (q : Fin 128) :
    tileAt V c n h (ix2 r q) = oN V c (2000 * n + r.val) q :=
  tile_point V c ⟨n, h⟩ r q

/-- The running sum row after point n. -/
theorem outs_sum (c : Dev nD) (n : ℕ) (h : n < cfg0.N) (q : Fin 128) :
    sumAt V c n h (ix2 (0 : Fin 1) q) = ∑ k ∈ Finset.range (2000 * (n + 1)), oN V c k q := by
  induction n with
  | zero =>
    refine (sum_first V c ⟨0, h⟩ (Nat.zero_mod 50) q).trans ?_
    exact (sum_first_block fun k => oN V c k q).symm
  | succ n ih =>
    have hB : ¬(n + 1) % 50 = 0 := by have := lt_fifty ⟨n + 1, h⟩; dsimp only at this; omega
    refine (sum_later V c ⟨n + 1, h⟩ hB q).trans ?_
    rw [NormSpec.sum_range_block (fun k => oN V c k q) (n + 1)]
    exact congrArg (· + _) (ih (Nat.lt_of_succ_lt h))

/-- The running row of squares after point n. -/
theorem outs_sumsq (c : Dev nD) (n : ℕ) (h : n < cfg0.N) (q : Fin 128) :
    sumSqAt V c n h (ix2 (0 : Fin 1) q) = ∑ k ∈ Finset.range (2000 * (n + 1)), oN V c k q * oN V c k q := by
  induction n with
  | zero =>
    refine (sumsq_first V c ⟨0, h⟩ (Nat.zero_mod 50) q).trans ?_
    exact (sum_first_block fun k => oN V c k q * oN V c k q).symm
  | succ n ih =>
    have hB : ¬(n + 1) % 50 = 0 := by have := lt_fifty ⟨n + 1, h⟩; dsimp only at this; omega
    refine (sumsq_later V c ⟨n + 1, h⟩ hB q).trans ?_
    rw [NormSpec.sum_range_block (fun k => oN V c k q * oN V c k q) (n + 1)]
    exact congrArg (· + _) (ih (Nat.lt_of_succ_lt h))

end Cert.KernelIdeal.Norm

end
-- ==== Proof.R0Arrays.lean ====
/-
  The first region's three result arrays once every write-back has landed.

  The product array is written back tile by tile, fifty tiles of 2000 rows that tile its 100000 rows, so it ends as
  the dense product. The two statistics rows keep one block for the whole grid and are written back after the last point
  only, so they end as the column sums of the dense product and of its squares over all 100000 rows.
-/
import proofs.«139318_j77695958385178_1_alg».proof.Proof.R0Fold

set_option maxRecDepth 16384

noncomputable section

namespace Cert.KernelIdeal.Norm

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The three arrays the first region writes, after its last write-back, each at its literal type. -/
abbrev outProduct (c : Dev nD) : FVec Ideal S100000x128 .f32 := (dat0 V c).arrAt 2 cfg0.N
abbrev outSum (c : Dev nD) : FVec Ideal S1x128 .f32 := (dat0 V c).arrAt 3 cfg0.N
abbrev outSumSq (c : Dev nD) : FVec Ideal S1x128 .f32 := (dat0 V c).arrAt 4 cfg0.N

/-! ## The dense product read at a row number -/

/-- At a row number k that is row p of the table, the zero-extended product is the dense product at p. -/
theorem oN_at (c : Dev nD) (k : ℕ) (q : Fin 128) (p : Fin 100000) (q' : Fin 128) (hk : k = p.val) (hq : q = q') :
    oN V c k q = NormSpec.dense (V c main_v34) (V c main_arg4) p q' := by
  subst hq; subst hk
  unfold oN; rw [dif_pos p.isLt]

/-- Summed over all 2000 · 50 = 100000 row numbers, the zero-extended product gives the column sum. -/
theorem sum_all_rows (c : Dev nD) (q q' : Fin 128) (hq : q = q') :
    ∑ k ∈ Finset.range (2000 * (49 + 1)), oN V c k q
      = NormSpec.colSum (NormSpec.dense (V c main_v34) (V c main_arg4)) q' := by
  subst hq
  unfold NormSpec.colSum
  rw [show 2000 * (49 + 1) = 100000 from rfl, Finset.sum_range]
  exact Finset.sum_congr rfl fun p _ => oN_at V c _ _ p q rfl rfl

/-- Likewise its squares give the column sum of squares. -/
theorem sumsq_all_rows (c : Dev nD) (q q' : Fin 128) (hq : q = q') :
    ∑ k ∈ Finset.range (2000 * (49 + 1)), oN V c k q * oN V c k q
      = NormSpec.colSumSq (NormSpec.dense (V c main_v34) (V c main_arg4)) q' := by
  subst hq
  unfold NormSpec.colSumSq
  rw [show 2000 * (49 + 1) = 100000 from rfl, Finset.sum_range]
  exact Finset.sum_congr rfl fun p _ => by rw [oN_at V c _ _ p q rfl rfl]

/-! ## The product array: fifty tiles of 2000 rows -/

/-- The dense product as one table over the product array's index type. -/
def productTable (c : Dev nD) : FVec Ideal S100000x128 .f32 :=
  fun i => NormSpec.dense (V c main_v34) (V c main_arg4) ⟨(i 0).val, (i 0).isLt⟩ ⟨(i 1).val, (i 1).isLt⟩

/-- Point t's tile is block (t, 0) of the product array. -/
theorem tile_index : ∀ t : Fin cfg0.N, win0_2.index t (0 : Fin 2) = t.val ∧ win0_2.index t (1 : Fin 2) = 0 :=
  (by decide +kernel : ∀ t : Fin grid0.N, _)

/-- What point t writes back is rows 2000 t … 2000 t + 1999 of the dense product: entry (r, q) of the tile is
    entry (2000 t + r, q) of the table. -/
theorem product_written (c : Dev nD) (t : Fin cfg0.N) :
    (dat0 V c).flushed 2 t = ((cfg0.win 2).blk t).view.read (Elt Ideal) (productTable V c) := by
  show (cfg0.win 2).cut (grid0.coords t) ((dat0 V c).after 2 t) = _
  rw [after0_2]
  funext j
  rw [View.read_apply]
  have hj0 : (j 0).val < 2000 := (j 0).isLt
  have hj1 : (j 1).val < 128 := (j 1).isLt
  have e1 : (cfg0.win 2).cut (grid0.coords t) (outsAt0 V c t.val t.isLt).1 j
      = tileAt V c t.val t.isLt (ix2 ⟨(j 0).val, hj0⟩ ⟨(j 1).val, hj1⟩) :=
    congrArg (tileAt V c t.val t.isLt) (funext fun a => by match a with | ⟨0, _⟩ => rfl | ⟨1, _⟩ => rfl)
  rw [e1, outs_tile]
  obtain ⟨i0, i1⟩ := tile_index t
  rw [cast_eq]
  unfold productTable
  refine oN_at V c _ _ _ _ ?_ ?_
  · show 2000 * t.val + (j 0).val = win0_2.index t (0 : Fin 2) * 2000 + 1 * (j 0).val
    rw [i0]; omega
  · apply Fin.ext
    show (j 1).val = win0_2.index t (1 : Fin 2) * 128 + 1 * (j 1).val
    rw [i1]; omega

/-- An index of the product array lies in point t's tile iff each coordinate lies in the tile's range on its axis. -/
theorem mem_tile (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v35_0).slice (win0_2.rect t)).set ↔ _
  rw [View.set_slice_whole, Rect.mem_set_unit]
  exact Iff.rfl

/-- Row p lies in the tile of point p / 2000, and every point writes its tile back: the tiles cover the array. -/
theorem tiles_cover (i : S100000x128.Idx) :
    ∃ t : Fin cfg0.N, (cfg0.win 2).flush t = true ∧ i ∈ ((cfg0.win 2).blk t).view.set := by
  have hN : cfg0.N = 50 := N_0
  have hi0 : (i 0).val < 100000 := (i 0).isLt
  have hi1 : (i 1).val < 128 := (i 1).isLt
  refine ⟨⟨(i 0).val / 2000, by rw [hN]; omega⟩, flush0_2 _, ?_⟩
  rw [mem_tile]
  obtain ⟨i0, i1⟩ := tile_index ⟨(i 0).val / 2000, by rw [hN]; omega⟩
  intro a
  match a with
  | ⟨0, _⟩ =>
    show win0_2.index _ (0 : Fin 2) * 2000 ≤ (i 0).val ∧ (i 0).val < win0_2.index _ (0 : Fin 2) * 2000 + 2000
    rw [i0]; dsimp only; omega
  | ⟨1, _⟩ =>
    show win0_2.index _ (1 : Fin 2) * 128 ≤ (i 1).val ∧ (i 1).val < win0_2.index _ (1 : Fin 2) * 128 + 128
    rw [i1]; omega

/-- So the product array ends holding the dense product's table. -/
theorem product_final (c : Dev nD) : (dat0 V c).arrAt 2 cfg0.N = productTable V c :=
  (dat0 V c).arrAt_eq_of_cover 2 (productTable V c) (fun t _ => product_written V c t) tiles_cover

/-- The product array ends as the dense product. -/
theorem arr_product (c : Dev nD) (p : Fin 100000) (q : Fin 128) :
    outProduct V c (ix2 p q) = NormSpec.dense (V c main_v34) (V c main_arg4) p q := by
  show (dat0 V c).arrAt 2 cfg0.N (ix2 p q) = _
  rw [product_final]
  rfl

/-! ## The sum row: one block, written back after the last point -/

/-- The row of column sums of the dense product, over the statistics row's index type. -/
def sumTable (c : Dev nD) : FVec Ideal S1x128 .f32 :=
  fun i => NormSpec.colSum (NormSpec.dense (V c main_v34) (V c main_arg4)) ⟨(i 1).val, (i 1).isLt⟩

/-- The row's one block never moves: it is block (0, 0) at every point. -/
theorem sumRow_index : ∀ t : Fin cfg0.N, win0_3.index t (0 : Fin 2) = 0 ∧ win0_3.index t (1 : Fin 2) = 0 :=
  (by decide +kernel : ∀ t : Fin grid0.N, _)

/-- The one write-back is at the last point, t = 49, where the running row holds the sum over all
    2000 · 50 = 100000 rows: the column sums of the dense product. -/
theorem sumRow_written (c : Dev nD) (t : Fin cfg0.N) (hf : (cfg0.win 3).flush t = true) :
    (dat0 V c).flushed 3 t = ((cfg0.win 3).blk t).view.read (Elt Ideal) (sumTable V c) := by
  have hN : cfg0.N = 50 := N_0
  have h49 : t.val = 49 := by have := (flush0_3 t).mp hf; have := t.isLt; omega
  show (cfg0.win 3).cut (grid0.coords t) ((dat0 V c).after 3 t) = _
  rw [after0_3]
  funext j
  rw [View.read_apply]
  have hj0 : (j 0).val < 1 := (j 0).isLt
  have hj1 : (j 1).val < 128 := (j 1).isLt
  have e1 : (cfg0.win 3).cut (grid0.coords t) (outsAt0 V c t.val t.isLt).2.1 j
      = sumAt V c t.val t.isLt (ix2 (0 : Fin 1) ⟨(j 1).val, hj1⟩) :=
    congrArg (sumAt V c t.val t.isLt) (funext fun a => by
      match a with
      | ⟨0, _⟩ => exact Fin.ext (by show (j 0).val = 0; omega)
      | ⟨1, _⟩ => rfl)
  rw [e1, outs_sum, h49]
  obtain ⟨i0, i1⟩ := sumRow_index t
  rw [cast_eq]
  unfold sumTable
  refine sum_all_rows V c _ _ ?_
  apply Fin.ext
  show (j 1).val = win0_3.index t (1 : Fin 2) * 128 + 1 * (j 1).val
  rw [i1]; omega

/-- An index of the row lies in point t's block iff each coordinate lies in the block's range on its axis. -/
theorem mem_sumRow (t : Fin cfg0.N) (i : S1x128.Idx) :
    i ∈ ((cfg0.win 3).blk t).view.set ↔ ∀ a : Fin 2, win0_3.index t a * S1x128.size a ≤ (i a).val
      ∧ (i a).val < win0_3.index t a * S1x128.size a + S1x128.size a := by
  show i ∈ ((View.whole main_v35_1).slice (win0_3.rect t)).set ↔ _
  rw [View.set_slice_whole, Rect.mem_set_unit]
  exact Iff.rfl

/-- The last point's block is the whole row. -/
theorem sumRow_cover (i : S1x128.Idx) :
    ∃ t : Fin cfg0.N, (cfg0.win 3).flush t = true ∧ i ∈ ((cfg0.win 3).blk t).view.set := by
  have hN : cfg0.N = 50 := N_0
  have hi0 : (i 0).val < 1 := (i 0).isLt
  have hi1 : (i 1).val < 128 := (i 1).isLt
  refine ⟨⟨49, by rw [hN]; omega⟩, (flush0_3 _).mpr rfl, ?_⟩
  rw [mem_sumRow]
  obtain ⟨i0, i1⟩ := sumRow_index ⟨49, by rw [hN]; omega⟩
  intro a
  match a with
  | ⟨0, _⟩ =>
    show win0_3.index _ (0 : Fin 2) * 1 ≤ (i 0).val ∧ (i 0).val < win0_3.index _ (0 : Fin 2) * 1 + 1
    rw [i0]; omega
  | ⟨1, _⟩ =>
    show win0_3.index _ (1 : Fin 2) * 128 ≤ (i 1).val ∧ (i 1).val < win0_3.index _ (1 : Fin 2) * 128 + 128
    rw [i1]; omega

/-- So the row ends holding that table. -/
theorem sumRow_final (c : Dev nD) : (dat0 V c).arrAt 3 cfg0.N = sumTable V c :=
  (dat0 V c).arrAt_eq_of_cover 3 (sumTable V c) (sumRow_written V c) sumRow_cover

/-- The sum row ends as the column sums of the dense product. -/
theorem arr_sum (c : Dev nD) (q : Fin 128) :
    outSum V c (ix2 (0 : Fin 1) q) = NormSpec.colSum (NormSpec.dense (V c main_v34) (V c main_arg4)) q := by
  show (dat0 V c).arrAt 3 cfg0.N (ix2 (0 : Fin 1) q) = _
  rw [sumRow_final]
  rfl

/-! ## The row of squares: the same, over the squares -/

/-- The row of column sums of squares of the dense product. -/
def sumSqTable (c : Dev nD) : FVec Ideal S1x128 .f32 :=
  fun i => NormSpec.colSumSq (NormSpec.dense (V c main_v34) (V c main_arg4)) ⟨(i 1).val, (i 1).isLt⟩

/-- The row's one block never moves: it is block (0, 0) at every point. -/
theorem sqRow_index : ∀ t : Fin cfg0.N, win0_4.index t (0 : Fin 2) = 0 ∧ win0_4.index t (1 : Fin 2) = 0 :=
  (by decide +kernel : ∀ t : Fin grid0.N, _)

/-- The one write-back is at the last point, t = 49, where the running row holds the sum over all
    2000 · 50 = 100000 rows: the column sums of the squares of the dense product. -/
theorem sqRow_written (c : Dev nD) (t : Fin cfg0.N) (hf : (cfg0.win 4).flush t = true) :
    (dat0 V c).flushed 4 t = ((cfg0.win 4).blk t).view.read (Elt Ideal) (sumSqTable V c) := by
  have hN : cfg0.N = 50 := N_0
  have h49 : t.val = 49 := by have := (flush0_4 t).mp hf; have := t.isLt; omega
  show (cfg0.win 4).cut (grid0.coords t) ((dat0 V c).after 4 t) = _
  rw [after0_4]
  funext j
  rw [View.read_apply]
  have hj0 : (j 0).val < 1 := (j 0).isLt
  have hj1 : (j 1).val < 128 := (j 1).isLt
  have e1 : (cfg0.win 4).cut (grid0.coords t) (outsAt0 V c t.val t.isLt).2.2 j
      = sumSqAt V c t.val t.isLt (ix2 (0 : Fin 1) ⟨(j 1).val, hj1⟩) :=
    congrArg (sumSqAt V c t.val t.isLt) (funext fun a => by
      match a with
      | ⟨0, _⟩ => exact Fin.ext (by show (j 0).val = 0; omega)
      | ⟨1, _⟩ => rfl)
  rw [e1, outs_sumsq, h49]
  obtain ⟨i0, i1⟩ := sqRow_index t
  rw [cast_eq]
  unfold sumSqTable
  refine sumsq_all_rows V c _ _ ?_
  apply Fin.ext
  show (j 1).val = win0_4.index t (1 : Fin 2) * 128 + 1 * (j 1).val
  rw [i1]; omega

/-- An index of the row lies in point t's block iff each coordinate lies in the block's range on its axis. -/
theorem mem_sqRow (t : Fin cfg0.N) (i : S1x128.Idx) :
    i ∈ ((cfg0.win 4).blk t).view.set ↔ ∀ a : Fin 2, win0_4.index t a * S1x128.size a ≤ (i a).val
      ∧ (i a).val < win0_4.index t a * S1x128.size a + S1x128.size a := by
  show i ∈ ((View.whole main_v35_2).slice (win0_4.rect t)).set ↔ _
  rw [View.set_slice_whole, Rect.mem_set_unit]
  exact Iff.rfl

/-- The last point's block is the whole row. -/
theorem sqRow_cover (i : S1x128.Idx) :
    ∃ t : Fin cfg0.N, (cfg0.win 4).flush t = true ∧ i ∈ ((cfg0.win 4).blk t).view.set := by
  have hN : cfg0.N = 50 := N_0
  have hi0 : (i 0).val < 1 := (i 0).isLt
  have hi1 : (i 1).val < 128 := (i 1).isLt
  refine ⟨⟨49, by rw [hN]; omega⟩, (flush0_4 _).mpr rfl, ?_⟩
  rw [mem_sqRow]
  obtain ⟨i0, i1⟩ := sqRow_index ⟨49, by rw [hN]; omega⟩
  intro a
  match a with
  | ⟨0, _⟩ =>
    show win0_4.index _ (0 : Fin 2) * 1 ≤ (i 0).val ∧ (i 0).val < win0_4.index _ (0 : Fin 2) * 1 + 1
    rw [i0]; omega
  | ⟨1, _⟩ =>
    show win0_4.index _ (1 : Fin 2) * 128 ≤ (i 1).val ∧ (i 1).val < win0_4.index _ (1 : Fin 2) * 128 + 128
    rw [i1]; omega

/-- So the row ends holding that table. -/
theorem sqRow_final (c : Dev nD) : (dat0 V c).arrAt 4 cfg0.N = sumSqTable V c :=
  (dat0 V c).arrAt_eq_of_cover 4 (sumSqTable V c) (sqRow_written V c) sqRow_cover

/-- The row of squares ends as the column sums of the squares of the dense product. -/
theorem arr_sumsq (c : Dev nD) (q : Fin 128) :
    outSumSq V c (ix2 (0 : Fin 1) q) = NormSpec.colSumSq (NormSpec.dense (V c main_v34) (V c main_arg4)) q := by
  show (dat0 V c).arrAt 4 cfg0.N (ix2 (0 : Fin 1) q) = _
  rw [sqRow_final]
  rfl

end Cert.KernelIdeal.Norm

end
-- ==== Proof.R1Value.lean ====
/-
  The second region's result array once every write-back has landed.

  Each of twenty grid points reads a 5000-row block of the product array and the four 1 × 128 rows (mean, variance,
  scale, shift), and writes back the block (x − mean) · (variance + ε)^(−1/2) · scale + shift, column by column. The
  twenty blocks tile the 100000 rows, so the array ends as that one function of the arrays the region finds.
-/
import proofs.«139318_j77695958385178_1_alg».proof.Proof.Gen.KernelIdeal.Frame
import proofs.«139318_j77695958385178_1_alg».proof.Proof.NormSpec
import Idealize.ShloMosaic.Lib.Pipeline.Value
import Idealize.ShloMosaic.Lib.ValueLayout
import Idealize.ShloMosaic.PureOps.Ideal.Laws

set_option maxRecDepth 16384

noncomputable section

namespace Cert.KernelIdeal.Norm

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The five arrays the second region reads, as it finds them, each at its literal type. -/
abbrev inProduct (c : Dev nD) : FVec Ideal S100000x128 .f32 := V c main_v35_0
abbrev inMean (c : Dev nD) : FVec Ideal S1x128 .f32 := V c main_v37
abbrev inVar (c : Dev nD) : FVec Ideal S1x128 .f32 := V c main_v41
abbrev inScale (c : Dev nD) : FVec Ideal S1x128 .f32 := V c main_v42
abbrev inShift (c : Dev nD) : FVec Ideal S1x128 .f32 := V c main_v43
/-- The array the second region writes, after its last write-back. -/
abbrev outNormalised (c : Dev nD) : FVec Ideal S100000x128 .f32 := (dat1 V c).arrAt 5 cfg1.N

/-! ## One block entry

The body computes, on a 5000 × 128 block x and four 1 × 128 rows μ, v, γ, β, the block
(x − μ) · (v + ε)^(−1/2) · γ + β, each row spread over the 5000 rows of the block. -/

/-- The body's result at row `p`, column `q` of its block: the block entry less the mean row's entry at `q`, times the
    inverse square root of the variance row's entry at `q` plus ε, times the scale row's entry, plus the shift row's. -/
theorem block_entry (x0 : FVec Ideal S5000x128 .f32) (x1 x2 x3 x4 : FVec Ideal S1x128 .f32) (p : Fin 5000) (q : Fin 128) :
    k1_pay1 (F := Ideal) x0 x1 x2 x3 x4 (ix2 p q)
      = (x0 (ix2 p q) - x1 (ix2 (0 : Fin 1) q)) * Ideal.rsqrt (x2 (ix2 (0 : Fin 1) q) + NormSpec.eps)
          * x3 (ix2 (0 : Fin 1) q) + x4 (ix2 (0 : Fin 1) q) := by
  unfold k1_pay1
  simp only [shapeCast_self]
  show (x0 (ix2 p q) - broadcastTo S5000x128 x1 broadcasts_S1x128_S5000x128 (ix2 p q))
        * broadcastTo S5000x128 (rsqrt (addf x2 (broadcast S1x128 (Scalar.ofBits .f32 0x3727C5AC#32)))) broadcasts_S1x128_S5000x128 (ix2 p q)
        * broadcastTo S5000x128 x3 broadcasts_S1x128_S5000x128 (ix2 p q)
        + broadcastTo S5000x128 x4 broadcasts_S1x128_S5000x128 (ix2 p q) = _
  rw [broadcastTo_1b_ab_apply, broadcastTo_1b_ab_apply, broadcastTo_1b_ab_apply, broadcastTo_1b_ab_apply]
  rfl

/-! ## The whole table -/

/-- The normalised table of a 100000 × 128 table `a0` and four rows: entry (r, q) is
    (a0 (r, q) − a1 q) · (a2 q + ε)^(−1/2) · a3 q + a4 q. -/
def normTable (a0 : S100000x128.Idx → EReal) (a1 a2 a3 a4 : S1x128.Idx → EReal) : S100000x128.Idx → EReal := fun i =>
  (a0 i - a1 (ix2 (0 : Fin 1) (⟨(i 1).val, (i 1).isLt⟩ : Fin 128)))
    * Ideal.rsqrt (a2 (ix2 (0 : Fin 1) (⟨(i 1).val, (i 1).isLt⟩ : Fin 128)) + NormSpec.eps)
    * a3 (ix2 (0 : Fin 1) (⟨(i 1).val, (i 1).isLt⟩ : Fin 128)) + a4 (ix2 (0 : Fin 1) (⟨(i 1).val, (i 1).isLt⟩ : Fin 128))

/-- The table at an index whose column is `q`. -/
theorem normTable_apply (a0 : S100000x128.Idx → EReal) (a1 a2 a3 a4 : S1x128.Idx → EReal) (i : S100000x128.Idx) (q : Fin 128)
    (hq : (i 1).val = q.val) :
    normTable a0 a1 a2 a3 a4 i
      = (a0 i - a1 (ix2 (0 : Fin 1) q)) * Ideal.rsqrt (a2 (ix2 (0 : Fin 1) q) + NormSpec.eps) * a3 (ix2 (0 : Fin 1) q)
          + a4 (ix2 (0 : Fin 1) q) := by
  have e : (⟨(i 1).val, (i 1).isLt⟩ : Fin 128) = q := Fin.ext hq
  unfold normTable
  rw [e]

/-! ## What each grid point writes back -/

/-- The zero offsets of a whole-buffer load or store, as the constant function. -/
theorem zero_offsets : (![0, 0] : Fin 2 → Nat) = fun _ => 0 := funext fun a => by fin_cases a <;> rfl

/-- The block indices over the twenty points: the product's window and the result's window sit at row block `t`, column
    block 0; each of the four rows is read whole, at block (0, 0). -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Point `t` writes back block `t` of the normalised table of the arrays the region finds: the product's block sits
    where the result's does, and every row block is the whole row. -/
theorem flushed_block (c : Dev nD) (t : Fin cfg1.N) :
    (dat1 V c).flushed 5 t = ((cfg1.win 5).blk t).view.read (Elt Ideal)
      (normTable (inProduct V c) (inMean V c) (inVar V c) (inScale V c) (inShift V c)) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  obtain ⟨e00, e01, e10, e11, e20, e21, e30, e31, e40, e41, e50, e51⟩ := block_indices t
  refine (block_entry _ _ _ _ _ p q).trans ?_
  -- row 5000 · t + p, column q of the product, on both windows
  have k0 : ((cfg1.win 0).blk t).view.emb (ix2 p q) = ((cfg1.win 5).blk t).view.emb (ix2 p q) := by
    funext a; apply Fin.ext
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * q.val = win1_5.index t (1 : Fin 2) * 128 + 1 * q.val; omega
  -- entry q of the one row, for each of the four rows
  have k1 : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 128 + 1 * q.val = q.val; omega
  have k2 : ((cfg1.win 2).blk t).view.emb (ix2 (0 : Fin 1) q) = ix2 (0 : Fin 1) q := by
    funext a; apply Fin.ext
    match a with
    | ⟨0, _⟩ => show win1_2.index t (0 : Fin 2) * 1 + 1 * 0 = 0; omega
    | ⟨1, _⟩ => show win1_2.index t (1 : Fin 2) * 128 + 1 * q.val = q.val; omega
  have k3 : ((cfg1.win 3).blk t).view.emb (ix2 (0 : Fin 1) q) = ix2 (0 : Fin 1) q := by
    funext a; apply Fin.ext
    match a with
    | ⟨0, _⟩ => show win1_3.index t (0 : Fin 2) * 1 + 1 * 0 = 0; omega
    | ⟨1, _⟩ => show win1_3.index t (1 : Fin 2) * 128 + 1 * q.val = q.val; omega
  have k4 : ((cfg1.win 4).blk t).view.emb (ix2 (0 : Fin 1) q) = ix2 (0 : Fin 1) q := by
    funext a; apply Fin.ext
    match a with
    | ⟨0, _⟩ => show win1_4.index t (0 : Fin 2) * 1 + 1 * 0 = 0; omega
    | ⟨1, _⟩ => show win1_4.index t (1 : Fin 2) * 128 + 1 * q.val = q.val; omega
  -- the result's block keeps the column
  have kq : ((((cfg1.win 5).blk t).view.emb (ix2 p q)) 1).val = q.val := by
    show win1_5.index t (1 : Fin 2) * 128 + 1 * q.val = q.val; omega
  refine Eq.trans ?_ (normTable_apply _ _ _ _ _ (((cfg1.win 5).blk t).view.emb (ix2 p q)) q kq).symm
  show (inProduct V c (((cfg1.win 0).blk t).view.emb (ix2 p q)) - inMean V c (((cfg1.win 1).blk t).view.emb (ix2 (0 : Fin 1) q)))
        * Ideal.rsqrt (inVar V c (((cfg1.win 2).blk t).view.emb (ix2 (0 : Fin 1) q)) + NormSpec.eps)
        * inScale V c (((cfg1.win 3).blk t).view.emb (ix2 (0 : Fin 1) q))
        + inShift V c (((cfg1.win 4).blk t).view.emb (ix2 (0 : Fin 1) q)) = _
  rw [k0, k1, k2, k3, k4]

/-! ## The twenty blocks tile the rows -/

/-- An index is in point `t`'s block exactly when each coordinate is in the block's range on its axis. -/
theorem mem_block (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v44).slice (win1_5.rect t)).set ↔ _
  rw [View.set_slice_whole, Rect.mem_set_unit]
  exact Iff.rfl

/-- Every one of the twenty row blocks is some point's. -/
theorem point_onto : ∀ r : Fin 20, ∃ t : Fin cfg1.N, win1_5.index t (0 : Fin 2) = r.val ∧ win1_5.index t (1 : Fin 2) = 0 :=
  (by decide +kernel : ∀ r : Fin 20, ∃ t : Fin grid1.N, win1_5.index t (0 : Fin 2) = r.val ∧ win1_5.index t (1 : Fin 2) = 0)

/-- Twenty blocks of 5000 rows tile the 100000 rows: row `r` lies in block `r / 5000`, and every column in the one
    column block. -/
theorem blocks_cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht0, ht1⟩ := point_onto ⟨(i 0).val / 5000, by omega⟩
  have ht0' : win1_5.index t (0 : Fin 2) = (i 0).val / 5000 := ht0
  refine ⟨t, flush1_5 t, ?_⟩
  rw [mem_block]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- So the array after the last write-back is the normalised table of the arrays the region finds. -/
theorem arr_table (c : Dev nD) :
    outNormalised V c = normTable (inProduct V c) (inMean V c) (inVar V c) (inScale V c) (inShift V c) :=
  (dat1 V c).arrAt_eq_of_cover 5 _ (fun t _ => flushed_block V c t) blocks_cover

/-- The normalised array, entry by entry, from the arrays the second region finds. -/
theorem arr_normalised (c : Dev nD) (p : Fin 100000) (q : Fin 128) :
    outNormalised V c (ix2 p q)
      = (inProduct V c (ix2 p q) - inMean V c (ix2 (0 : Fin 1) q)) * Ideal.rsqrt (inVar V c (ix2 (0 : Fin 1) q) + NormSpec.eps)
          * inScale V c (ix2 (0 : Fin 1) q) + inShift V c (ix2 (0 : Fin 1) q) :=
  (congrFun (arr_table V c) (ix2 p q)).trans (normTable_apply _ _ _ _ _ (ix2 p q) q rfl)

end Cert.KernelIdeal.Norm

end
-- ==== Proof.HostMid.lean ====
/-
  The host arithmetic between the two regions, and the arrays the first region is entered with.

  Between the regions the host divides the sum row and the row of squares by 100000 (the mean, and the mean of the
  squares), subtracts the square of the mean (the variance), and lays the scale and shift vectors out as 1 × 128 rows.
  No host operation before the first region writes the weights, and none between the regions writes the product array.
-/
import proofs.«139318_j77695958385178_1_alg».proof.Proof.Gen.KernelIdeal.Frame
import proofs.«139318_j77695958385178_1_alg».proof.Proof.NormSpec
import Idealize.ShloMosaic.Lib.Pipeline.Value
import Idealize.ShloMosaic.Lib.ValueLayout
import Idealize.ShloMosaic.Lib.StableHlo.Run

set_option maxRecDepth 16384

noncomputable section

namespace Cert.KernelIdeal.Norm

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The rows the host computes between the regions, and the two statistics rows the first region leaves, each at its
    literal type. -/
abbrev midMean (c : Dev nD) : FVec Ideal S1x128 .f32 := V3 m ρ c main_v37
abbrev midVar (c : Dev nD) : FVec Ideal S1x128 .f32 := V3 m ρ c main_v41
abbrev midScale (c : Dev nD) : FVec Ideal S1x128 .f32 := V3 m ρ c main_v42
abbrev midShift (c : Dev nD) : FVec Ideal S1x128 .f32 := V3 m ρ c main_v43
abbrev leftSum (c : Dev nD) : FVec Ideal S1x128 .f32 := (dat0 (V1 m ρ) c).arrAt 3 cfg0.N
abbrev leftSumSq (c : Dev nD) : FVec Ideal S1x128 .f32 := (dat0 (V1 m ρ) c).arrAt 4 cfg0.N
abbrev argScale (c : Dev nD) : FVec Ideal S128 .f32 := m ((c : Thread nD τ).loc main_arg5)
abbrev argShift (c : Dev nD) : FVec Ideal S128 .f32 := m ((c : Thread nD τ).loc main_arg6)

/-- The first region finds the weights as launched. -/
theorem entry_weights (c : Dev nD) : V1 m ρ c main_arg4 = m ((c : Thread nD τ).loc main_arg4) := by
  show StableHlo.after hostOps0 (W0 m ρ c) (Proc.devRef .tc main_arg4) = _
  after_results_simp <;> rfl

/-- The second region finds the product array as the first region left it. -/
theorem mid_product (c : Dev nD) : V3 m ρ c main_v35_0 = (dat0 (V1 m ρ) c).arrAt 2 cfg0.N := by
  show StableHlo.after hostOps1 (W2 m ρ c) (Proc.devRef .tc main_v35_0) = _
  after_results_simp
  exact W2_arr m ρ c 2

/-- At the first region's exit the sum row is what the region's fold leaves in its fourth array. -/
theorem exit_sum (c : Dev nD) : W2 m ρ c (Proc.devRef .tc main_v35_1) = leftSum m ρ c := W2_arr m ρ c 3

/-- At the first region's exit the row of squares is what the region's fold leaves in its fifth array. -/
theorem exit_sumSq (c : Dev nD) : W2 m ρ c (Proc.devRef .tc main_v35_2) = leftSumSq m ρ c := W2_arr m ρ c 4

/-- The scale vector is untouched up to the first region's exit: no host operation writes it and it is no array of
    the region. -/
theorem exit_scale (c : Dev nD) : W2 m ρ c (Proc.devRef .tc main_arg5) = argScale m c := by
  rw [W2_of_ne m ρ c main_arg5 (by decide)]
  show StableHlo.after hostOps0 (W0 m ρ c) (Proc.devRef .tc main_arg5) = _
  after_results_simp <;> rfl

/-- The shift vector is untouched up to the first region's exit. -/
theorem exit_shift (c : Dev nD) : W2 m ρ c (Proc.devRef .tc main_arg6) = argShift m c := by
  rw [W2_of_ne m ρ c main_arg6 (by decide)]
  show StableHlo.after hostOps0 (W0 m ρ c) (Proc.devRef .tc main_arg6) = _
  after_results_simp <;> rfl

/-- The constant row: 100000 broadcast to 1 × 128. -/
abbrev rowN : FVec Ideal S1x128 .f32 :=
  broadcastInDim S1x128 ![] bcast_S_S1x128 (constant (F := Ideal) S_ .f32 0x47C35000#32)

/-- Every entry of the constant row is the divisor. -/
theorem rowN_apply (i : S1x128.Idx) : rowN i = NormSpec.cN := rfl

/-- The mean row as a whole: the sum row divided entrywise by the constant row. -/
theorem midMean_eq (c : Dev nD) : midMean m ρ c = Host.divf (F := Ideal) (leftSum m ρ c) rowN := by
  show StableHlo.after hostOps1 (W2 m ρ c) (Proc.devRef .tc main_v37) = _
  after_results
  rw [exit_sum]

/-- The variance row as a whole: the row of squares over the constant row, less the square of the mean row. -/
theorem midVar_eq (c : Dev nD) :
    midVar m ρ c = subf (Host.divf (F := Ideal) (leftSumSq m ρ c) rowN) (mulf (midMean m ρ c) (midMean m ρ c)) := by
  rw [midMean_eq]
  show StableHlo.after hostOps1 (W2 m ρ c) (Proc.devRef .tc main_v41) = _
  after_results
  rw [exit_sum, exit_sumSq]

/-- The mean row: the sum row the first region left, over 100000. -/
theorem mid_mean (c : Dev nD) (q : Fin 128) :
    midMean m ρ c (ix2 (0 : Fin 1) q) = Ideal.div (leftSum m ρ c (ix2 (0 : Fin 1) q)) NormSpec.cN := by
  rw [midMean_eq]
  rfl

/-- The variance row: the row of squares over 100000, less the square of the mean. -/
theorem mid_var (c : Dev nD) (q : Fin 128) :
    midVar m ρ c (ix2 (0 : Fin 1) q)
      = Ideal.div (leftSumSq m ρ c (ix2 (0 : Fin 1) q)) NormSpec.cN
          - midMean m ρ c (ix2 (0 : Fin 1) q) * midMean m ρ c (ix2 (0 : Fin 1) q) := by
  rw [midVar_eq]
  rfl

/-- The scale row as a whole: the scale vector laid out as one row. -/
theorem midScale_eq (c : Dev nD) : midScale m ρ c = shapeCast S1x128 (argScale m c) shapeCasts_S128_S1x128 := by
  show StableHlo.after hostOps1 (W2 m ρ c) (Proc.devRef .tc main_v42) = _
  after_results
  rw [exit_scale]
  rfl

/-- The shift row as a whole: the shift vector laid out as one row. -/
theorem midShift_eq (c : Dev nD) : midShift m ρ c = shapeCast S1x128 (argShift m c) shapeCasts_S128_S1x128 := by
  show StableHlo.after hostOps1 (W2 m ρ c) (Proc.devRef .tc main_v43) = _
  after_results
  rw [exit_shift]
  rfl

/-- The scale row is the scale vector. -/
theorem mid_scale (c : Dev nD) (q : Fin 128) :
    midScale m ρ c (ix2 (0 : Fin 1) q) = argScale m c (ix1 q) := by
  rw [midScale_eq]
  exact shapeCast_a_1a_apply (argScale m c) shapeCasts_S128_S1x128 0 q

/-- The shift row is the shift vector. -/
theorem mid_shift (c : Dev nD) (q : Fin 128) :
    midShift m ρ c (ix2 (0 : Fin 1) q) = argShift m c (ix1 q) := by
  rw [midShift_eq]
  exact shapeCast_a_1a_apply (argShift m c) shapeCasts_S128_S1x128 0 q

end Cert.KernelIdeal.Norm

end
-- ==== Proof.KernelValue.lean ====
/-
  The idealized kernel's result: batch normalisation of the dense product, with the variance taken as the mean of the
  squares less the square of the mean.
-/
import proofs.«139318_j77695958385178_1_alg».proof.Proof.KernelRun
import proofs.«139318_j77695958385178_1_alg».proof.Proof.R0Arrays
import proofs.«139318_j77695958385178_1_alg».proof.Proof.R1Value
import proofs.«139318_j77695958385178_1_alg».proof.Proof.HostMid

set_option maxRecDepth 16384

noncomputable section

namespace Cert.KernelIdeal.Norm

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The dense product of the table the first region finds and the weights as launched. -/
abbrev product (c : Dev nD) : Fin 100000 → Fin 128 → EReal :=
  NormSpec.dense (V1 m ρ c main_v34) (m ((c : Thread nD τ).loc main_arg4))

/-- The result array after the run, at its literal type. -/
abbrev result (c : Dev nD) : FVec Ideal S100000x128 .f32 := W4 m ρ c (Proc.devRef .tc main_v44)

/-- The result array, entry by entry. -/
theorem result_eq (c : Dev nD) (p : Fin 100000) (q : Fin 128) :
    result m ρ c (ix2 p q)
      = NormSpec.normWith (NormSpec.varMoments (product m ρ c)) (product m ρ c)
          (fun q => argScale m c (ix1 q)) (fun q => argShift m c (ix1 q)) p q := by
  -- the weights the first region finds are the launch weights
  have hw : V1 m ρ c main_arg4 = m ((c : Thread nD τ).loc main_arg4) := entry_weights m ρ c
  -- the result array is what the second region's write-backs leave
  have hres : result m ρ c = outNormalised (V3 m ρ) c := W4_arr m ρ c 5
  -- the product array the second region reads is the dense product
  have hprod : inProduct (V3 m ρ) c = outProduct (V1 m ρ) c := mid_product m ρ c
  have e1 : inProduct (V3 m ρ) c (ix2 p q) = product m ρ c p q := by
    rw [hprod, arr_product (V1 m ρ) c p q, hw]
  -- the mean row is the column mean of the dense product
  have hsum : leftSum m ρ c (ix2 (0 : Fin 1) q) = NormSpec.colSum (product m ρ c) q := by
    have h := arr_sum (V1 m ρ) c q
    rw [hw] at h
    exact h
  have e2 : inMean (V3 m ρ) c (ix2 (0 : Fin 1) q) = NormSpec.mean (product m ρ c) q := by
    unfold NormSpec.mean
    rw [← hsum]
    exact mid_mean m ρ c q
  -- the variance row is the mean of the squares less the square of the mean
  have hsq : leftSumSq m ρ c (ix2 (0 : Fin 1) q) = NormSpec.colSumSq (product m ρ c) q := by
    have h := arr_sumsq (V1 m ρ) c q
    rw [hw] at h
    exact h
  have e3 : inVar (V3 m ρ) c (ix2 (0 : Fin 1) q) = NormSpec.varMoments (product m ρ c) q := by
    unfold NormSpec.varMoments
    rw [← hsq, ← e2]
    exact mid_var m ρ c q
  -- scale and shift rows are the scale and shift vectors
  have e4 : inScale (V3 m ρ) c (ix2 (0 : Fin 1) q) = argScale m c (ix1 q) := mid_scale m ρ c q
  have e5 : inShift (V3 m ρ) c (ix2 (0 : Fin 1) q) = argShift m c (ix1 q) := mid_shift m ρ c q
  rw [hres, arr_normalised (V3 m ρ) c p q, e1, e2, e3, e4, e5]
  rfl

end Cert.KernelIdeal.Norm

end
-- ==== Proof.RefValue.lean ====
/-
  The idealized reference's result: batch normalisation of the dense product, with the variance taken as the mean of
  the squared deviations from the mean.

  The reference gathers and averages rows into a 100000 × 896 table (its first thirty-odd operations, left unopened
  here), multiplies by the weights, and normalises each column by its mean and by the mean of the squared deviations.

  The reading goes stage by stage. Write A for the table, W for the weights and o p q = Σ k, A (p, k) · W (k, q).
  The product stage read at (p, q) is o p q. A column sum read at q is 0 + Σ p, (its operand at (p, q)); the zero is
  dropped. A stage of rank one that is broadcast along the rows is read at (p, q) through the index maps of the two
  broadcasts, which send (p, q) to (0, q) and then to q. So the mean stage is μ q = (Σ p, o p q) / 100000 at every row,
  the deviation stage is o p q − μ q, its square summed down a column and divided by 100000 is the variance, and the
  last stage is (o p q − μ q) · (variance q + ε)^(−1/2) · γ q + β q.
-/
import proofs.«139318_j77695958385178_1_alg».proof.Proof.Gen.ReferenceIdeal.Read
import proofs.«139318_j77695958385178_1_alg».proof.Proof.NormSpec
import Idealize.ShloMosaic.PureOps.Ideal.Laws

set_option maxRecDepth 16384

noncomputable section

namespace Cert.ReferenceIdeal.Norm

open Cert.ReferenceIdeal Cert.ReferenceIdeal.Gen Cert.ReferenceIdeal.Read
open Idealize.ShloMosaic Idealize.ShloMosaic.TcCoe Idealize.ShloMosaic.ValueIdx Idealize.SL.Sem

/-! ## The index maps at (p, q) and at q -/

/-- The product's left operand is read at row p, column k. -/
theorem lidx_at (p : Fin 100000) (q : Fin 128) (k : Fin 896) : lidx_main_v35 (ix2 p q) k = ix2 p k :=
  funext fun a => Fin.ext (by match a with | ⟨0, _⟩ => rfl | ⟨1, _⟩ => rfl)

/-- The product's right operand is read at row k, column q. -/
theorem ridx_at (p : Fin 100000) (q : Fin 128) (k : Fin 896) : ridx_main_v35 (ix2 p q) k = ix2 k q :=
  funext fun a => Fin.ext (by match a with | ⟨0, _⟩ => rfl | ⟨1, _⟩ => rfl)

/-- The first column sum, at column q, reads its operand at (k, q). -/
theorem idx36_at (q : Fin 128) (k : Fin 100000) : idx_main_v36 (ix1 q) k = ix2 k q :=
  funext fun a => Fin.ext (by match a with | ⟨0, _⟩ => rfl | ⟨1, _⟩ => rfl)

/-- The second column sum, at column q, reads its operand at (k, q). -/
theorem idx43_at (q : Fin 128) (k : Fin 100000) : idx_main_v43 (ix1 q) k = ix2 k q :=
  funext fun a => Fin.ext (by match a with | ⟨0, _⟩ => rfl | ⟨1, _⟩ => rfl)

/-- A column vector broadcast to a row and then down the rows is read, at (p, q), at q: the five such pairs. -/
theorem idx39_40_at (p : Fin 100000) (q : Fin 128) : idx_main_v39 (idx_main_v40 (ix2 p q)) = ix1 q :=
  funext fun a => Fin.ext (by match a with | ⟨0, _⟩ => rfl)
theorem idx46_47_at (p : Fin 100000) (q : Fin 128) : idx_main_v46 (idx_main_v47 (ix2 p q)) = ix1 q :=
  funext fun a => Fin.ext (by match a with | ⟨0, _⟩ => rfl)
theorem idx52_53_at (p : Fin 100000) (q : Fin 128) : idx_main_v52 (idx_main_v53 (ix2 p q)) = ix1 q :=
  funext fun a => Fin.ext (by match a with | ⟨0, _⟩ => rfl)
theorem idx55_56_at (p : Fin 100000) (q : Fin 128) : idx_main_v55 (idx_main_v56 (ix2 p q)) = ix1 q :=
  funext fun a => Fin.ext (by match a with | ⟨0, _⟩ => rfl)
theorem idx58_59_at (p : Fin 100000) (q : Fin 128) : idx_main_v58 (idx_main_v59 (ix2 p q)) = ix1 q :=
  funext fun a => Fin.ext (by match a with | ⟨0, _⟩ => rfl)

/-! ## The stages, one at a time -/

section
variable (x0 : (⟨S100000x128, .f32⟩ : BufTy).Contents (Elt Ideal)) (x1 x2 x3 : (⟨S700000, .i32⟩ : BufTy).Contents (Elt Ideal))
  (x4 : (⟨S896x128, .f32⟩ : BufTy).Contents (Elt Ideal))

/-- The product stage at (p, q) is the dense product's entry. -/
theorem v35_at (p : Fin 100000) (q : Fin 128) :
    val_main_v35 (F := Ideal) x0 x1 x2 x3 x4 (ix2 p q)
      = NormSpec.dense (val_main_v34 (F := Ideal) x0 x1 x2 x3) x4 p q := by
  rw [val_main_v35_apply]
  unfold NormSpec.dense
  refine Finset.sum_congr rfl fun k _ => ?_
  rw [lidx_at, ridx_at]

/-- The first column sum at q is the column sum of the dense product. -/
theorem v36_at (q : Fin 128) :
    val_main_v36 (F := Ideal) x0 x1 x2 x3 x4 (ix1 q)
      = NormSpec.colSum (NormSpec.dense (val_main_v34 (F := Ideal) x0 x1 x2 x3) x4) q := by
  rw [val_main_v36_apply, val_main_cst_9_apply, Ideal.ofBits_def, Ideal.ofBits_zero_f32, zero_add]
  unfold NormSpec.colSum
  refine Finset.sum_congr rfl fun k _ => ?_
  rw [idx36_at, v35_at]

/-- The mean stage at q. -/
theorem v38_at (q : Fin 128) :
    val_main_v38 (F := Ideal) x0 x1 x2 x3 x4 (ix1 q)
      = NormSpec.mean (NormSpec.dense (val_main_v34 (F := Ideal) x0 x1 x2 x3) x4) q := by
  rw [val_main_v38_apply, v36_at, val_main_v37_apply, val_main_cst_10_apply, Ideal.hostDivf_def, Ideal.ofBits_def]
  rfl

/-- The mean, broadcast down the rows (the copy the deviations of the variance use). -/
theorem v40_at (p : Fin 100000) (q : Fin 128) :
    val_main_v40 (F := Ideal) x0 x1 x2 x3 x4 (ix2 p q)
      = NormSpec.mean (NormSpec.dense (val_main_v34 (F := Ideal) x0 x1 x2 x3) x4) q := by
  rw [val_main_v40_apply, val_main_v39_apply, idx39_40_at, v38_at]

/-- The mean, broadcast down the rows (the copy the normalised entry uses). -/
theorem v47_at (p : Fin 100000) (q : Fin 128) :
    val_main_v47 (F := Ideal) x0 x1 x2 x3 x4 (ix2 p q)
      = NormSpec.mean (NormSpec.dense (val_main_v34 (F := Ideal) x0 x1 x2 x3) x4) q := by
  rw [val_main_v47_apply, val_main_v46_apply, idx46_47_at, v38_at]

/-- The squared deviation at (p, q). -/
theorem v42_at (p : Fin 100000) (q : Fin 128) :
    val_main_v42 (F := Ideal) x0 x1 x2 x3 x4 (ix2 p q)
      = (NormSpec.dense (val_main_v34 (F := Ideal) x0 x1 x2 x3) x4 p q
          - NormSpec.mean (NormSpec.dense (val_main_v34 (F := Ideal) x0 x1 x2 x3) x4) q)
        * (NormSpec.dense (val_main_v34 (F := Ideal) x0 x1 x2 x3) x4 p q
          - NormSpec.mean (NormSpec.dense (val_main_v34 (F := Ideal) x0 x1 x2 x3) x4) q) := by
  rw [val_main_v42_apply, val_main_v41_apply, v35_at, v40_at, Ideal.subf_def, Ideal.mulf_def]

/-- The variance stage at q: the mean of the squared deviations. -/
theorem v45_at (q : Fin 128) :
    val_main_v45 (F := Ideal) x0 x1 x2 x3 x4 (ix1 q)
      = NormSpec.varDeviations (NormSpec.dense (val_main_v34 (F := Ideal) x0 x1 x2 x3) x4) q := by
  rw [val_main_v45_apply, val_main_v43_apply, val_main_cst_11_apply, val_main_v44_apply, val_main_cst_12_apply,
    Ideal.hostDivf_def, Ideal.ofBits_def, Ideal.ofBits_def, Ideal.ofBits_zero_f32, zero_add]
  unfold NormSpec.varDeviations
  refine congrArg (fun s => Ideal.div s NormSpec.cN) (Finset.sum_congr rfl fun k _ => ?_)
  rw [idx43_at, v42_at]

/-- The inverse root of the stabilised variance, broadcast down the rows. -/
theorem v53_at (p : Fin 100000) (q : Fin 128) :
    val_main_v53 (F := Ideal) x0 x1 x2 x3 x4 (ix2 p q)
      = Ideal.rsqrt (NormSpec.varDeviations (NormSpec.dense (val_main_v34 (F := Ideal) x0 x1 x2 x3) x4) q + NormSpec.eps) := by
  rw [val_main_v53_apply, val_main_v52_apply, idx52_53_at, val_main_v51_apply, val_main_v50_apply, v45_at,
    val_main_v49_apply, val_main_cst_13_apply, Ideal.hostUnary_rsqrt_def, Ideal.addf_def, Ideal.ofBits_def]
  rfl

end

/-- The result, entry by entry, over the table the reference builds. -/
theorem ref_value (x0 : (⟨S100000x128, .f32⟩ : BufTy).Contents (Elt Ideal)) (x1 x2 x3 : (⟨S700000, .i32⟩ : BufTy).Contents (Elt Ideal))
    (x4 : (⟨S896x128, .f32⟩ : BufTy).Contents (Elt Ideal)) (x5 x6 : (⟨S128, .f32⟩ : BufTy).Contents (Elt Ideal))
    (p : Fin 100000) (q : Fin 128) :
    val_main_v60 (F := Ideal) x0 x1 x2 x3 x4 x5 x6 (ix2 p q)
      = NormSpec.normWith (NormSpec.varDeviations (NormSpec.dense (val_main_v34 (F := Ideal) x0 x1 x2 x3) x4))
          (NormSpec.dense (val_main_v34 (F := Ideal) x0 x1 x2 x3) x4) (fun q => x5 (ix1 q)) (fun q => x6 (ix1 q)) p q := by
  rw [val_main_v60_apply, val_main_v57_apply, val_main_v54_apply, val_main_v48_apply, v35_at, v47_at, v53_at,
    val_main_v56_apply, val_main_v55_apply, idx55_56_at, val_main_v59_apply, val_main_v58_apply, idx58_59_at,
    Ideal.addf_def, Ideal.mulf_def, Ideal.mulf_def, Ideal.subf_def]
  rfl

end Cert.ReferenceIdeal.Norm

end
-- ==== Proof.LibRows.lean ====
/-
  Row gathers and accumulating row scatters read at an index.

  A table of N rows of width C is read, or accumulated into, at rows named by a column of n start indices
  (an [n × 1] array of words). Reading: result row p is the table's row at start index p, read signed and clamped
  into [0, N − 1]. Accumulating: update row e lands on the operand row its start index names, read signed and NOT
  clamped, and is dropped when that is no row of the operand; entry (r, c) of the result is the operand's entry plus the
  sum of the entries (e, c) of the update rows e that land on r.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibRows

open Idealize.ShloMosaic Idealize.ShloMosaic.ValueIdx Idealize.ShloMosaic.StableHlo.Predicate

/-- The table row a start index names when it is READ: the word read signed, clamped into [0, N − 1]. -/
def rowOf {N n w : ℕ} (hN : 0 < N) (idx : IVec ⟨2, ![n, 1]⟩ w) (p : Fin n) : Fin N :=
  ⟨min (idx (ixP p)).toInt.toNat (N - 1), by omega⟩

/-- A row gather read at (p, q): the table at (row of start index p, q). The five hypotheses are the printed
    dimension numbers, each closed by `rfl` at a use. -/
theorem gather_rows {α : Type} {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (hN : 0 < N) (p : Fin n) (q : Fin C) :
    Host.gather d x idx (ix2 p q) = x (ix2 (rowOf hN idx p) q) := by
  unfold Host.gather
  congr 1
  funext a
  apply Fin.ext
  have hnb : ∀ a : Fin 2, a ∉ d.operandBatchingDims := fun a => by rw [hob]; exact List.not_mem_nil
  -- the result's batch axes are axis 0 alone, its offset axes axis 1 alone
  have hbd : ∀ X ∈ d.batchDims, X = (0 : Fin 2) := by
    intro X hX
    have : d.batchDims = [(0 : Fin 2)] := by unfold GatherDims.batchDims; rw [hoff]; rfl
    rw [this] at hX; exact List.mem_singleton.mp hX
  have hod : ∀ X ∈ d.offsetDims, X = (1 : Fin 2) := by
    intro X hX; rw [hoff] at hX; exact List.mem_singleton.mp hX
  have e0 : ∀ X : Fin 2, X = 0 → ((ix2 p q : (⟨2, ![n, C]⟩ : Shape).Idx) X).val = p.val := by rintro _ rfl; rfl
  have e1 : ∀ X : Fin 2, X = 1 → ((ix2 p q : (⟨2, ![n, C]⟩ : Shape).Idx) X).val = q.val := by rintro _ rfl; rfl
  match a with
  | ⟨0, _⟩ =>
    -- axis 0 is collapsed and start-indexed: its slice has size 1, so the start is clamped into [0, N − 1]
    have hsl : d.sliceSizes 0 = 1 := d.slice_collapsed 0 (by rw [hcoll]; exact List.mem_singleton.mpr rfl)
    have hk : (0 : Fin 2) ∉ d.sKept := by rw [GatherDims.mem_sKept, hcoll]; simp
    have hm : (0 : Fin 2) ∈ d.startIndexMap := by rw [hsim]; exact List.mem_singleton.mpr rfl
    show d.start (ix2 p q) idx 0 + d.batchCoord (ix2 p q) 0 + d.offCoord (ix2 p q) 0 = min (idx (ixP p)).toInt.toNat (N - 1)
    rw [GatherDims.batchCoord_eq_zero _ _ _ (hnb 0), GatherDims.offCoord_eq_zero _ _ _ hk]
    unfold GatherDims.start
    rw [dif_pos hm]
    show min _ (N - d.sliceSizes 0) = _
    rw [hsl]
    congr 3
    congr 1
    funext b
    apply Fin.ext
    match b with
    | ⟨0, _⟩ =>
      unfold GatherDims.siIdx
      rw [dif_neg (by rw [hivd]; exact Nat.zero_ne_one)]
      unfold GatherDims.siCoord
      simp only [Fin.val_cast]
      exact e0 _ (hbd _ (List.getElem_mem _))
    | ⟨1, _⟩ =>
      unfold GatherDims.siIdx
      rw [dif_pos (by rw [hivd])]
      show List.idxOf (0 : Fin 2) d.startIndexMap = 0
      rw [hsim]; simp
  | ⟨1, _⟩ =>
    -- axis 1 is the one offset axis: no start, and the offset coordinate is the result's column
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hnb 1)]
    unfold GatherDims.start GatherDims.offCoord
    rw [dif_neg hm, dif_pos hk]
    simp only [Nat.zero_add, Nat.add_zero]
    exact e1 _ (hod _ (List.getElem_mem _))

/-- Where update entry (e, c) of an accumulating row scatter lands: on (r, c') exactly when start index e, read signed,
    is r and the columns agree. -/
theorem scatter_rows_resultIdx {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (e : Fin n) (c : Fin C) (r : Fin N) (c' : Fin C) :
    d.resultIdx? (ix2 e c) idx = some (ix2 r c') ↔ (idx (ixP e)).toInt = (r.val : ℤ) ∧ c = c' := by
  -- the update's scatter axes are axis 0 alone, its window axes axis 1 alone
  have hus : ∀ X ∈ d.uScatter, X = (0 : Fin 2) := by
    intro X hX
    have : d.uScatter = [(0 : Fin 2)] := by unfold ScatterDims.uScatter; rw [huw]; rfl
    rw [this] at hX; exact List.mem_singleton.mp hX
  have huwd : ∀ X ∈ d.updateWindowDims, X = (1 : Fin 2) := by
    intro X hX; rw [huw] at hX; exact List.mem_singleton.mp hX
  have e0 : ∀ X : Fin 2, X = 0 → ((ix2 e c : (⟨2, ![n, C]⟩ : Shape).Idx) X).val = e.val := by rintro _ rfl; rfl
  have e1 : ∀ X : Fin 2, X = 1 → ((ix2 e c : (⟨2, ![n, C]⟩ : Shape).Idx) X).val = c.val := by rintro _ rfl; rfl
  have hmem_sKept : ∀ a : Fin 2, a ∈ d.sKept ↔ a ∉ d.insertedWindowDims := fun a => by
    simp [ScatterDims.sKept, Shape.kept, List.mem_filter, List.mem_finRange]
  -- the start of the window: the index word, read signed, on axis 0; nothing on axis 1
  have hs0 : d.start (ix2 e c) idx 0 = (idx (ixP e)).toInt := by
    have hm : (0 : Fin 2) ∈ d.scatterDimsToOperandDims := by rw [hsd]; exact List.mem_singleton.mpr rfl
    unfold ScatterDims.start
    rw [dif_pos hm]
    congr 2
    funext b
    apply Fin.ext
    match b with
    | ⟨0, _⟩ =>
      unfold ScatterDims.siIdx
      rw [dif_neg (by rw [hivd]; exact Nat.zero_ne_one)]
      unfold ScatterDims.siCoord
      simp only [Fin.val_cast]
      exact e0 _ (hus _ (List.getElem_mem _))
    | ⟨1, _⟩ =>
      unfold ScatterDims.siIdx
      rw [dif_pos (by rw [hivd])]
      show List.idxOf (0 : Fin 2) d.scatterDimsToOperandDims = 0
      rw [hsd]; simp
  have hs1 : d.start (ix2 e c) idx 1 = 0 := by
    have hm : (1 : Fin 2) ∉ d.scatterDimsToOperandDims := by rw [hsd]; simp
    unfold ScatterDims.start
    rw [dif_neg hm]
  -- the window coordinate: nothing on the inserted axis 0; the update's column on axis 1
  have hw0 : d.window (ix2 e c) 0 = 0 := by
    have hk : (0 : Fin 2) ∉ d.sKept := by rw [hmem_sKept, hiw]; simp
    unfold ScatterDims.window
    rw [dif_neg hk]
  have hw1 : d.window (ix2 e c) 1 = c.val := by
    have hk : (1 : Fin 2) ∈ d.sKept := by rw [hmem_sKept, hiw]; simp
    unfold ScatterDims.window
    rw [dif_pos hk]
    exact e1 _ (huwd _ (List.getElem_mem _))
  have hr := r.isLt
  have hc := c.isLt
  have hc' := c'.isLt
  unfold ScatterDims.resultIdx?
  constructor
  · intro h
    split at h
    · next hin =>
      have hf := Option.some.inj h
      have h0 := congrArg (fun f => (f 0).val) hf
      have h1 := congrArg (fun f => (f 1).val) hf
      simp only [hs0, hw0, hs1, hw1] at h0 h1
      have hin0 := (hin 0).1
      rw [hs0, hw0] at hin0
      change ((idx (ixP e)).toInt + ((0 : ℕ) : ℤ)).toNat = r.val at h0
      change ((0 : ℤ) + (c.val : ℤ)).toNat = c'.val at h1
      refine ⟨by omega, Fin.ext (by omega)⟩
    · exact absurd h (by simp)
  · rintro ⟨hi, rfl⟩
    have hin : ∀ a, 0 ≤ d.start (ix2 e c) idx a + d.window (ix2 e c) a ∧
        d.start (ix2 e c) idx a + (d.window (ix2 e c) a : ℤ) < ((⟨2, ![N, C]⟩ : Shape).size a : ℤ) := by
      intro a
      match a with
      | ⟨0, _⟩ =>
        show 0 ≤ d.start (ix2 e c) idx 0 + (d.window (ix2 e c) 0 : ℤ) ∧ d.start (ix2 e c) idx 0 + (d.window (ix2 e c) 0 : ℤ) < (N : ℤ)
        rw [hs0, hw0, hi]; omega
      | ⟨1, _⟩ =>
        show 0 ≤ d.start (ix2 e c) idx 1 + (d.window (ix2 e c) 1 : ℤ) ∧ d.start (ix2 e c) idx 1 + (d.window (ix2 e c) 1 : ℤ) < (C : ℤ)
        rw [hs1, hw1]; omega
    rw [dif_pos hin]
    congr 1
    funext a
    apply Fin.ext
    match a with
    | ⟨0, _⟩ =>
      show (d.start (ix2 e c) idx 0 + (d.window (ix2 e c) 0 : ℤ)).toNat = r.val
      rw [hs0, hw0, hi]; omega
    | ⟨1, _⟩ =>
      show (d.start (ix2 e c) idx 1 + (d.window (ix2 e c) 1 : ℤ)).toNat = c.val
      rw [hs1, hw1]; omega

/-- The accumulating row scatter at the extended reals, read at (r, c): the operand's entry plus the sum over the update
    rows that land on r of their entry in column c. -/
theorem scatterAdd_rows {φ : FTy} {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (x : FVec Ideal ⟨2, ![N, C]⟩ φ) (idx : IVec ⟨2, ![n, 1]⟩ w)
    (upd : FVec Ideal ⟨2, ![n, C]⟩ φ) (r : Fin N) (c : Fin C) :
    Host.scatterAdd d x idx upd (ix2 r c)
      = x (ix2 r c) + ∑ e ∈ Finset.univ.filter (fun e : Fin n => (idx (ixP e)).toInt = (r.val : ℤ)), upd (ix2 e c) := by
  show x (ix2 r c) + ∑ j ∈ Finset.univ.filter (fun j => d.resultIdx? j idx = some (ix2 r c)), upd j = _
  congr 1
  rw [Finset.sum_filter, sum_idx2, Finset.sum_filter]
  refine Finset.sum_congr rfl fun a _ => ?_
  simp only [scatter_rows_resultIdx d huw hiw hsd hivd]
  by_cases ha : (idx (ixP a)).toInt = (r.val : ℤ)
  · simp only [ha, true_and, if_true]
    rw [Finset.sum_ite_eq']
    simp
  · simp only [ha, false_and, if_false]
    exact Finset.sum_const_zero

/-- An accumulating scatter of real entries into real entries has real entries, whatever its dimension numbers and
    indices: each entry is the operand's plus a finite sum of updates. -/
theorem scatterAdd_real {φ : FTy} {s si su : Shape} {w : ℕ} (d : ScatterDims s si su) (x : FVec Ideal s φ) (idx : IVec si w)
    (upd : FVec Ideal su φ) (hx : ∀ i, ∃ r : ℝ, x i = (r : EReal)) (hu : ∀ j, ∃ r : ℝ, upd j = (r : EReal)) (i : s.Idx) :
    ∃ r : ℝ, Host.scatterAdd d x idx upd i = (r : EReal) := by
  -- a finite sum of real updates is real
  have hsum : ∀ S : Finset su.Idx, ∃ b : ℝ, ∑ j ∈ S, upd j = (b : EReal) := by
    classical
    intro S
    induction S using Finset.induction_on with
    | empty => exact ⟨0, by rw [Finset.sum_empty, EReal.coe_zero]⟩
    | insert j S hj ih =>
      obtain ⟨b, hb⟩ := ih
      obtain ⟨u, hu'⟩ := hu j
      exact ⟨u + b, by rw [Finset.sum_insert hj, hb, hu', EReal.coe_add]⟩
  obtain ⟨a, ha⟩ := hx i
  obtain ⟨b, hb⟩ := hsum (Finset.univ.filter (fun j => d.resultIdx? j idx = some i))
  refine ⟨a + b, ?_⟩
  show x i + ∑ j ∈ Finset.univ.filter (fun j => d.resultIdx? j idx = some i), upd j = _
  rw [ha, hb, EReal.coe_add]

end Cert.LibRows

end
-- ==== Proof.Finite.lean ====
/-
  Finiteness: from finite inputs the table both programs build has real entries.

  The table is built from the node features by a clamped row gather, an accumulating scatter into zeros, a division by
  a count that is at least one, and an overwriting scatter of the features themselves; each step keeps real entries real
  whatever the integer index arrays hold (a clamped read is always in range, and a scatter drops what falls outside).
  The precondition says every feature and every weight is strictly below +∞ in absolute value, that is, a real number.
-/
import proofs.«139318_j77695958385178_1_alg».proof.Proof.Gen.ReferenceIdeal.Read
import proofs.«139318_j77695958385178_1_alg».proof.Proof.Gen.Pre_finite_inputs
import proofs.«139318_j77695958385178_1_alg».proof.Proof.LibRows
import proofs.«139318_j77695958385178_1_alg».proof.Proof.LibLinear
import Idealize.ShloMosaic.Lib.ReduceAll
import Idealize.ShloMosaic.PureOps.Ideal.Laws

set_option maxRecDepth 16384

noncomputable section

namespace Cert.ReferenceIdeal.Norm

open Cert.ReferenceIdeal Cert.ReferenceIdeal.Gen Cert.ReferenceIdeal.Read
open Idealize.ShloMosaic Idealize.ShloMosaic.TcCoe Idealize.ShloMosaic.ValueIdx Idealize.SL.Sem

/-- A left fold keeps whatever every step keeps. -/
theorem foldl_keeps {β γ : Type} (f : β → γ → β) (Q : β → Prop) (hf : ∀ r n, Q r → Q (f r n)) :
    ∀ (l : List γ) (r : β), Q r → Q (l.foldl f r)
  | [], _, h => h
  | n :: l, r, h => foldl_keeps f Q hf l (f r n) (hf r n h)

/-- An overwriting scatter keeps every property that all entries of its operand and all entries of its update have,
    whatever its dimension numbers and indices: each update either is dropped or replaces one entry by an update entry. -/
theorem scatter_overwrite_keeps {α : Type} {s si u : Shape} {w : ℕ} (d : ScatterDims s si u) (P : α → Prop)
    (x : s.Idx → α) (idx : IVec si w) (upd : u.Idx → α) (hx : ∀ i, P (x i)) (hu : ∀ j, P (upd j)) (i : s.Idx) :
    P (Host.scatter d (fun _ b => b) x idx upd i) := by
  unfold Host.scatter
  refine foldl_keeps _ (fun r => ∀ i, P (r i)) ?_ _ x hx i
  intro r n hr i'
  cases d.resultIdx? (u.rowMajor.symm n) idx with
  | none => exact hr i'
  | some j =>
    show P (if i' = j then upd (u.rowMajor.symm n) else r i')
    by_cases h : i' = j
    · rw [if_pos h]; exact hu _
    · rw [if_neg h]; exact hr i'

/-- The pattern of +0.0 denotes the real 0, the pattern of 1.0 the real 1. -/
theorem ofBits_zero : Ideal.ofBits .f32 0x00000000#32 = ((0 : ℝ) : EReal) := by
  simp [Ideal.ofBits, Ideal.ieee]
theorem ofBits_one : Ideal.ofBits .f32 0x3F800000#32 = ((1 : ℝ) : EReal) := by
  simp [Ideal.ofBits, Ideal.ieee, -EReal.coe_mul]; norm_num

section Table

variable (x0 : (⟨S100000x128, .f32⟩ : BufTy).Contents (Elt Ideal)) (x1 x2 x3 : (⟨S700000, .i32⟩ : BufTy).Contents (Elt Ideal))

/-- The gathered rows are entries of the features. -/
theorem v9_real (hx : ∀ i, ∃ r : ℝ, x0 i = (r : EReal)) (j : S700000x128.Idx) :
    ∃ r : ℝ, val_main_v9 (F := Ideal) x0 x2 j = (r : EReal) := hx _

/-- The two zero tables and the table of ones. -/
theorem v10_real (j : S700000x128.Idx) : ∃ r : ℝ, val_main_v10 (F := Ideal) j = (r : EReal) :=
  ⟨0, by rw [val_main_v10_apply, val_main_cst_apply, Ideal.ofBits_def, ofBits_zero]⟩
theorem v14_real (j : S700000.Idx) : ∃ r : ℝ, val_main_v14 (F := Ideal) j = (r : EReal) :=
  ⟨0, by rw [val_main_v14_apply, val_main_cst_3_apply, Ideal.ofBits_def, ofBits_zero]⟩
theorem v13_real (j : S700000.Idx) : ∃ r : ℝ, val_main_v13 (F := Ideal) j = (r : EReal) :=
  ⟨1, by rw [val_main_v13_apply, val_main_cst_2_apply, Ideal.ofBits_def, ofBits_one]⟩

/-- The accumulated rows and the counts are real. -/
theorem v12_real (hx : ∀ i, ∃ r : ℝ, x0 i = (r : EReal)) (j : S700000x128.Idx) :
    ∃ r : ℝ, val_main_v12 (F := Ideal) x0 x1 x2 x3 j = (r : EReal) :=
  Cert.LibRows.scatterAdd_real _ _ _ _ v10_real (v9_real x0 x2 hx) j
theorem v16_real (j : S700000.Idx) : ∃ r : ℝ, val_main_v16 (F := Ideal) x1 x3 j = (r : EReal) :=
  Cert.LibRows.scatterAdd_real _ _ _ _ v14_real v13_real j

/-- The divisor, the larger of the count and 1, is a real that is not 0. -/
theorem v18_real (j : S700000.Idx) : ∃ c : ℝ, c ≠ 0 ∧ val_main_v18 (F := Ideal) x1 x3 j = (c : EReal) := by
  obtain ⟨a, ha⟩ := v16_real x1 x3 j
  refine ⟨max a 1, (lt_of_lt_of_le one_pos (le_max_right a 1)).ne', ?_⟩
  rw [val_main_v18_apply, Ideal.maximumf_def, ha, val_main_v17_apply, val_main_cst_4_apply, Ideal.ofBits_def, ofBits_one]
  exact (EReal.coe_strictMono.monotone.map_max).symm

/-- A quotient of reals by a real that is not 0 is real. -/
theorem v21_real (hx : ∀ i, ∃ r : ℝ, x0 i = (r : EReal)) (j : S700000x128.Idx) :
    ∃ r : ℝ, val_main_v21 (F := Ideal) x0 x1 x2 x3 j = (r : EReal) := by
  obtain ⟨a, ha⟩ := v12_real x0 x1 x2 x3 hx j
  obtain ⟨c, hc0, hc⟩ := v18_real x1 x3 (idx_main_v19 (idx_main_v20 j))
  refine ⟨a * (1 / c), ?_⟩
  rw [val_main_v21_apply, Ideal.hostDivf_def, ha, val_main_v20_apply, val_main_v19_apply, hc, Ideal.div_coe hc0, EReal.coe_mul]

/-- The overwriting scatter of the features into the quotients. -/
theorem v33_real (hx : ∀ i, ∃ r : ℝ, x0 i = (r : EReal)) (j : S700000x128.Idx) :
    ∃ r : ℝ, val_main_v33 (F := Ideal) x0 x1 x2 x3 j = (r : EReal) :=
  scatter_overwrite_keeps _ (fun a : EReal => ∃ r : ℝ, a = (r : EReal)) _ _ _ (v21_real x0 x1 x2 x3 hx) hx j

end Table

/-- The table has real entries when the features do. -/
theorem table_real (x0 : (⟨S100000x128, .f32⟩ : BufTy).Contents (Elt Ideal)) (x1 x2 x3 : (⟨S700000, .i32⟩ : BufTy).Contents (Elt Ideal))
    (hx : ∀ i, ∃ r : ℝ, x0 i = (r : EReal)) (i : S100000x896.Idx) :
    ∃ r : ℝ, val_main_v34 (F := Ideal) x0 x1 x2 x3 i = (r : EReal) := by
  rw [val_main_v34_apply]
  exact v33_real x0 x1 x2 x3 hx _

instance subsingleton_scalar_idx : Subsingleton Cert.Pre_finite_inputs.S_.Idx := ⟨fun a b => funext fun d => d.elim0⟩

/-- An extended real whose absolute value, the larger of x and −x, is strictly below +∞ is a real number:
    at −∞ and at +∞ that larger one is +∞ itself. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- The precondition makes the features and the weights real. -/
theorem pre_real (a0 : FVec Ideal Cert.Pre_finite_inputs.S100000x128 .f32) (a1 a2 a3 : IVec Cert.Pre_finite_inputs.S700000 32)
    (a4 : FVec Ideal Cert.Pre_finite_inputs.S896x128 .f32) (a5 a6 : FVec Ideal Cert.Pre_finite_inputs.S128 .f32)
    (h : Cert.Pre_finite_inputs.fn (F := Ideal) a0 a1 a2 a3 a4 a5 a6 = fun _ => 1#1) :
    (∀ i, ∃ r : ℝ, a0 i = (r : EReal)) ∧ (∀ i, ∃ r : ℝ, a4 i = (r : EReal)) := by
  -- the predicate at its one index is a conjunction of four tests, each of them a conjunction over every entry
  have h0 := congrFun h ValueIdx.ix0
  dsimp only [Cert.Pre_finite_inputs.fn, Cert.Pre_finite_inputs.fn_part1] at h0
  obtain ⟨h13, -⟩ := IntOp.andi_eq_one.1 h0
  obtain ⟨h8, -⟩ := IntOp.andi_eq_one.1 h13
  obtain ⟨h3, h7⟩ := IntOp.andi_eq_one.1 h8
  exact ⟨fun i => real_of_abs_lt_top _ (Host.reduce_andi_all _ _ _ _ _ h3 i),
    fun i => real_of_abs_lt_top _ (Host.reduce_andi_all _ _ _ _ _ h7 i)⟩

end Cert.ReferenceIdeal.Norm

end
-- ==== Proof.Prelude.lean ====
/-
  Both programs build the same table: the host operations before the kernel's first region are, operation for
  operation, the reference's operations up to its reshape, applied to the same arguments.
-/
import proofs.«139318_j77695958385178_1_alg».proof.Proof.Gen.KernelIdeal.Frame
import proofs.«139318_j77695958385178_1_alg».proof.Proof.Gen.ReferenceIdeal.Read
import Idealize.ShloMosaic.Lib.StableHlo.Run

set_option maxRecDepth 16384

noncomputable section

namespace Cert.KernelIdeal.Norm

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

set_option maxHeartbeats 8000000 in
/-- The table the first region finds is the reference's table of the launch arguments. -/
theorem entry_table (c : Dev nD) :
    V1 m ρ c main_v34
      = Cert.ReferenceIdeal.Read.val_main_v34 (F := Ideal) (m ((c : Thread nD τ).loc main_arg0)) (m ((c : Thread nD τ).loc main_arg1))
          (m ((c : Thread nD τ).loc main_arg2)) (m ((c : Thread nD τ).loc main_arg3)) := by
  show StableHlo.after hostOps0 (W0 m ρ c) (Proc.devRef .tc main_v34) = _
  after_results
  rfl

end Cert.KernelIdeal.Norm

end
-- ==== Proof.lean ====
/-
  A tiled matrix product that accumulates batch statistics as it goes, then a normalising pass, against a dense
  product followed by BatchNorm with batch statistics: equal over the extended reals on finite inputs.

  Both programs build the same 100000 × 896 table from the node features (a clamped gather, a scatter-mean, an
  overwrite of every seventh row) and multiply it by the same weights: o = table · W. Both then output
  (o − μ) · (var + ε)^(−1/2) · γ + β column by column, with μ the column mean. They differ in the variance: the kernel
  accumulates Σ o and Σ o² over fifty tiles of 2000 rows and takes mean(o²) − μ², the reference takes mean((o − μ)²).
  The two agree when every entry of o is a real number, and that is where the precondition is used: finite features
  and finite weights make the table, and so the product, real, whatever the integer index arrays hold. The format
  changes in the kernel (to half precision and back) are the identity on the extended reals, and a sum taken tile by
  tile is the sum taken at once, since addition there is commutative and associative.

  The three frames: the two kernel programs' are the generated frame certificates, the reference's is its generated run
  with the result dropped. The idealization rewrote nothing, so the fourth claim is trivial.
-/
import proofs.«139318_j77695958385178_1_alg».proof.Defs
import proofs.«139318_j77695958385178_1_alg».proof.Proof.Gen.Kernel
import proofs.«139318_j77695958385178_1_alg».proof.Proof.Gen.Kernel.Skeleton
import proofs.«139318_j77695958385178_1_alg».proof.Proof.Gen.Kernel.Launch
import proofs.«139318_j77695958385178_1_alg».proof.Proof.Gen.Kernel.Points
import proofs.«139318_j77695958385178_1_alg».proof.Proof.Gen.Kernel.Frame
import proofs.«139318_j77695958385178_1_alg».proof.Proof.Gen.KernelIdeal
import proofs.«139318_j77695958385178_1_alg».proof.Proof.Gen.KernelIdeal.Skeleton
import proofs.«139318_j77695958385178_1_alg».proof.Proof.Gen.KernelIdeal.Launch
import proofs.«139318_j77695958385178_1_alg».proof.Proof.Gen.KernelIdeal.Points
import proofs.«139318_j77695958385178_1_alg».proof.Proof.Gen.KernelIdeal.Frame
import proofs.«139318_j77695958385178_1_alg».proof.Proof.Gen.ReferenceIdeal
import proofs.«139318_j77695958385178_1_alg».proof.Proof.Gen.ReferenceIdeal.Run
import proofs.«139318_j77695958385178_1_alg».proof.Proof.Gen.ReferenceIdeal.Read
import proofs.«139318_j77695958385178_1_alg».proof.Proof.Gen.Pre_finite_inputs
import proofs.«139318_j77695958385178_1_alg».proof.Proof.KernelValue
import proofs.«139318_j77695958385178_1_alg».proof.Proof.RefValue
import proofs.«139318_j77695958385178_1_alg».proof.Proof.Finite
import proofs.«139318_j77695958385178_1_alg».proof.Proof.Prelude
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same array: the kernel's normalisation over
    the variance as mean of squares less squared mean, the reference's over the mean of squared deviations, of one dense
    product whose entries the precondition makes real. -/
theorem algebraic : Cert.algebraic_KernelIdeal_ReferenceIdeal := by
  intro m ρ m' ρ' hpre hagree
  refine ⟨fun c => Cert.KernelIdeal.Norm.result m ρ c, Cert.KernelIdeal.Norm.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v60_eq, h0, h1, h2, h3, h4, h5, h6]
  -- finite features and weights are real numbers
  obtain ⟨hx, hW⟩ := Cert.ReferenceIdeal.Norm.pre_real _ _ _ _ _ _ _ (hpre c)
  funext i
  obtain ⟨p, q, rfl⟩ : ∃ (p : Fin 100000) (q : Fin 128), i = ix2 p q := ⟨i 0, i 1, eq_ix2 i⟩
  rw [Cert.ReferenceIdeal.Norm.ref_value]
  refine Eq.trans ?_ (Cert.KernelIdeal.Norm.result_eq m ρ c p q).symm
  unfold Cert.KernelIdeal.Norm.product
  rw [Cert.KernelIdeal.Norm.entry_table m ρ c]
  exact Cert.NormSpec.norm_forms _
    (fun p q => Cert.NormSpec.dense_real _ _ (Cert.ReferenceIdeal.Norm.table_real _ _ _ _ hx) hW p q) _ _ p q

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
